-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S8 : Shape := ⟨1, ![8]⟩
abbrev S16x512x512 : Shape := ⟨3, ![16, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S16x8x512x512 .f32) (main_arg1 : FVec F S8 .f32) (main_arg2 : IVec S16x512x512 32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Kernel.lean ====
abbrev S16x8x512x512 : Shape := ⟨4, ![16, 8, 512, 512]⟩
abbrev S8 : Shape := ⟨1, ![8]⟩
abbrev S16x512x512 : Shape := ⟨3, ![16, 512, 512]⟩
abbrev S16x8x1x1 : Shape := ⟨4, ![16, 8, 1, 1]⟩
abbrev S1x8x512x512 : Shape := ⟨4, ![1, 8, 512, 512]⟩
abbrev S1x512x512 : Shape := ⟨3, ![1, 512, 512]⟩
abbrev S1x8x1x1 : Shape := ⟨4, ![1, 8, 1, 1]⟩
abbrev S1x8x128x512 : Shape := ⟨4, ![1, 8, 128, 512]⟩
abbrev S1x128x512 : Shape := ⟨3, ![1, 128, 512]⟩
abbrev S1x1x128x512 : Shape := ⟨4, ![1, 1, 128, 512]⟩
abbrev S1x8x128 : Shape := ⟨3, ![1, 8, 128]⟩
abbrev S1x8x128x1 : Shape := ⟨4, ![1, 8, 128, 1]⟩
abbrev S1x8x1 : Shape := ⟨3, ![1, 8, 1]⟩
abbrev S16x8 : Shape := ⟨2, ![16, 8]⟩
abbrev S_ : Shape := ⟨0, ![]⟩

abbrev nBuf : Space → Nat
  | .hbm => 29
  | .vmem => 8
  | .smem => 0
  | _ => 0

abbrev bufTy : (tb : Table) → Fin (tcTables nBuf tb) → BufTy
  | .hbm, ⟨0, _⟩ => ⟨S16x8x512x512, .f32⟩
  | .hbm, ⟨1, _⟩ => ⟨S8, .f32⟩
  | .hbm, ⟨2, _⟩ => ⟨S16x512x512, .i32⟩
  | .hbm, ⟨3, _⟩ => ⟨S16x8x1x1, .f32⟩
  | .hbm, ⟨4, _⟩ => ⟨S16x8x1x1, .f32⟩
  | .hbm, ⟨5, _⟩ => ⟨S16x8, .f32⟩
  | .hbm, ⟨6, _⟩ => ⟨S_, .f32⟩
  | .hbm, ⟨7, _⟩ => ⟨S8, .f32⟩
  | .hbm, ⟨8, _⟩ => ⟨S16x8, .f32⟩
  | .hbm, ⟨9, _⟩ => ⟨S_, .f32⟩
  | .hbm, ⟨10, _⟩ => ⟨S8, .f32⟩
  | .hbm, ⟨11, _⟩ => ⟨S_, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .i1⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S_, .f32⟩
  | .local _ .vmem, ⟨0, _⟩ => ⟨S1x8x512x512, .f32⟩
  | .local _ .vmem, ⟨1, _⟩ => ⟨S1x8x512x512, .f32⟩
  | .local _ .vmem, ⟨2, _⟩ => ⟨S1x512x512, .i32⟩
  | .local _ .vmem, ⟨3, _⟩ => ⟨S1x512x512, .i32⟩
  | .local _ .vmem, ⟨4, _⟩ => ⟨S1x8x1x1, .f32⟩
  | .local _ .vmem, ⟨5, _⟩ => ⟨S1x8x1x1, .f32⟩
  | .local _ .vmem, ⟨6, _⟩ => ⟨S1x8x1x1, .f32⟩
  | .local _ .vmem, ⟨7, _⟩ => ⟨S1x8x1x1, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v6 : BitVec 32 := Scalar.muli arg5 c128_i32
  v6
def k0_off1 (k0_t1 : Fin k0_t1_loop.trips) : Fin 4 → Nat :=
  let c0_9 : Index := 0#32
  let c0_10 : Index := 0#32
  let c0_i32 : BitVec 32 := 0#32
  let c1_i32 : BitVec 32 := 1#32
  let arg5 : BitVec 32 := Scf.iv c0_i32 c1_i32 k0_t1
  let c128_i32 : BitVec 32 := 128#32
  let v6 : BitVec 32 := Scalar.muli arg5 c128_i32
  let v7 : BitVec 32 := v6
  let v8 : Index := Scalar.indexCast v7
  let c0_11 : Index := 0#32
  ![0, 0, v8.toNat, 0]
def k0_off2 (k0_t1 : Fin k0_t1_loop.trips) : Fin 3 → Nat :=
  let c0_12 : Index := 0#32
  let c0_i32 : BitVec 32 := 0#32
  let c1_i32 : BitVec 32 := 1#32
  let arg5 : BitVec 32 := Scf.iv c0_i32 c1_i32 k0_t1
  let c128_i32 : BitVec 32 := 128#32
  let v6 : BitVec 32 := Scalar.muli arg5 c128_i32
  let v7 : BitVec 32 := v6
  let v10 : Index := Scalar.indexCast v7
  let c0_13 : Index := 0#32
  ![0, v10.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  h_S1x8x128x512 : 0 < S1x8x128x512.numel
  h_S1x128x512 : 0 < S1x128x512.numel
  reduces_S1x8x128x512_S1x128x512 : S1x8x128x512.Reduces [1] S1x128x512
  shapeCasts_S1x128x512_S1x1x128x512 : S1x128x512.ShapeCasts S1x1x128x512
  broadcasts_S1x1x128x512_S1x8x128x512 : S1x1x128x512.Broadcasts S1x8x128x512
  iota_S1x8x1x1_d1_w32 : S1x8x1x1.Iotas .tc 32 [1]
  broadcasts_S1x8x1x1_S1x8x128x512 : S1x8x1x1.Broadcasts S1x8x128x512
  natLt_1_32 : 1 < 32
  reduces_S1x8x128x512_S1x8x128 : S1x8x128x512.Reduces [3] S1x8x128
  shapeCasts_S1x8x128_S1x8x128x1 : S1x8x128.ShapeCasts S1x8x128x1
  reduces_S1x8x128x1_S1x8x1 : S1x8x128x1.Reduces [2] S1x8x1
  shapeCasts_S1x8x1_S1x8x1x1 : S1x8x1.ShapeCasts S1x8x1x1
  inb_S1x8x1x1_S1x8x1x1_0_0_0_0 : ∀ a, (![0, 0, 0, 0] : Fin 4 → Nat) a + S1x8x1x1.size a ≤ S1x8x1x1.size a
  h_S1x8x1x1 : 0 < S1x8x1x1.numel
  shapeCasts_S16x8x1x1_S16x8 : S16x8x1x1.ShapeCasts S16x8
  reducesTo_S16x8_S8_d0 : S16x8.ReducesTo [0] S8
  h_S_ : 0 < S_.numel
  reducesTo_S8_S_d0 : S8.ReducesTo [0] S_
  bcast_S_S8 : S_.BroadcastsInDim S8 (![] : Fin 0 → Fin S8.rank)
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x8x128x512.size a ≤ S1x8x512x512.size a
  k0_off2_inb : ∀ k0_t1 : Fin k0_t1_loop.trips, ∀ a, (k0_off2 k0_t1) a + S1x128x512.size a ≤ S1x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512x512.size a ≤ S16x8x512x512.size a
  hwx0_0 : ∀ i : grid0.Coords, EltTy.bits .f32 = 32 ∨ (Rect.block (s := S16x8x512x512) S1x8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x512x512.size a
  hwx0_1 : ∀ i : grid0.Coords, EltTy.bits .i32 = 32 ∨ (Rect.block (s := S16x512x512) S1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1x1.size a ≤ S16x8x1x1.size a
  hwx0_2 : ∀ i : grid0.Coords, EltTy.bits .f32 = 32 ∨ (Rect.block (s := S16x8x1x1) S1x8x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1x1.size a ≤ S16x8x1x1.size a
  hwx0_3 : ∀ i : grid0.Coords, EltTy.bits .f32 = 32 ∨ (Rect.block (s := S16x8x1x1) S1x8x1x1.size (cc0_transform_3 i) (hinb0_3 i)).WholeWords (EltTy.packing .f32)

variable [Facts₀]

abbrev win0_0 : Pipeline.Window sig grid0 :=
  Pipeline.Window.ofSpec (Memref.whole main_arg0) S1x8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8x512x512 : Shape := ⟨4, ![16, 8, 512, 512]⟩
abbrev S8 : Shape := ⟨1, ![8]⟩
abbrev S16x512x512 : Shape := ⟨3, ![16, 512, 512]⟩
abbrev S_ : Shape := ⟨0, ![]⟩
abbrev S16x512x512x8 : Shape := ⟨4, ![16, 512, 512, 8]⟩
abbrev S4194304x8 : Shape := ⟨2, ![4194304, 8]⟩
abbrev S4194304 : Shape := ⟨1, ![4194304]⟩
abbrev S4194304x1 : Shape := ⟨2, ![4194304, 1]⟩
abbrev S4194304x1x1 : Shape := ⟨3, ![4194304, 1, 1]⟩
abbrev S1 : Shape := ⟨1, ![1]⟩
abbrev S1x1x1 : Shape := ⟨3, ![1, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S8, .f32⟩
  | .hbm, ⟨2, _⟩ => ⟨S16x512x512, .i32⟩
  | .hbm, ⟨3, _⟩ => ⟨S_, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S16x512x512x8, .f32⟩
  | .hbm, ⟨8, _⟩ => ⟨S4194304x8, .f32⟩
  | .hbm, ⟨9, _⟩ => ⟨S4194304, .i32⟩
  | .hbm, ⟨10, _⟩ => ⟨S_, .f32⟩
  | .hbm, ⟨11, _⟩ => ⟨S4194304, .f32⟩
  | .hbm, ⟨12, _⟩ => ⟨S_, .f32⟩
  | .hbm, ⟨13, _⟩ => ⟨S4194304, .f32⟩
  | .hbm, ⟨14, _⟩ => ⟨S4194304, .f32⟩
  | .hbm, ⟨15, _⟩ => ⟨S4194304x1, .f32⟩
  | .hbm, ⟨16, _⟩ => ⟨S4194304x8, .f32⟩
  | .hbm, ⟨17, _⟩ => ⟨S4194304x8, .f32⟩
  | .hbm, ⟨18, _⟩ => ⟨S4194304x8, .f32⟩
  | .hbm, ⟨19, _⟩ => ⟨S_, .f32⟩
  | .hbm, ⟨20, _⟩ => ⟨S4194304, .f32⟩
  | .hbm, ⟨21, _⟩ => ⟨S4194304x1, .f32⟩
  | .hbm, ⟨22, _⟩ => ⟨S4194304x1, .f32⟩
  | .hbm, ⟨23, _⟩ => ⟨S4194304x8, .f32⟩
  | .hbm, ⟨24, _⟩ => ⟨S4194304x8, .f32⟩
  | .hbm, ⟨25, _⟩ => ⟨S4194304x1, .i32⟩
  | .hbm, ⟨26, _⟩ => ⟨S_, .i32⟩
  | .hbm, ⟨27, _⟩ => ⟨S4194304x1, .i32⟩
  | .hbm, ⟨28, _⟩ => ⟨S4194304x1, .i1⟩
  | .hbm, ⟨29, _⟩ => ⟨S_, .i32⟩
  | .hbm, ⟨30, _⟩ => ⟨S4194304x1, .i32⟩
  | .hbm, ⟨31, _⟩ => ⟨S4194304x1, .i32⟩
  | .hbm, ⟨32, _⟩ => ⟨S4194304x1, .i32⟩
  | .hbm, ⟨33, _⟩ => ⟨S4194304x1x1, .i32⟩
  | .hbm, ⟨34, _⟩ => ⟨S1, .i32⟩
  | .hbm, ⟨35, _⟩ => ⟨S_, .i32⟩
  | .hbm, ⟨36, _⟩ => ⟨S4194304x1x1, .i32⟩
  | .hbm, ⟨37, _⟩ => ⟨S4194304x1x1, .i1⟩
  | .hbm, ⟨38, _⟩ => ⟨S1x1x1, .i32⟩
  | .hbm, ⟨39, _⟩ => ⟨S4194304x1x1, .i32⟩
  | .hbm, ⟨40, _⟩ => ⟨S4194304x1x1, .i1⟩
  | .hbm, ⟨41, _⟩ => ⟨S4194304x1x1, .i1⟩
  | .hbm, ⟨42, _⟩ => ⟨S_, .i1⟩
  | .hbm, ⟨43, _⟩ => ⟨S4194304x1, .i1⟩
  | .hbm, ⟨44, _⟩ => ⟨S4194304x1, .f32⟩
  | .hbm, ⟨45, _⟩ => ⟨S_, .f32⟩
  | .hbm, ⟨46, _⟩ => ⟨S4194304x1, .f32⟩
  | .hbm, ⟨47, _⟩ => ⟨S4194304x1, .f32⟩
  | .hbm, ⟨48, _⟩ => ⟨S4194304, .f32⟩
  | .hbm, ⟨49, _⟩ => ⟨S4194304, .f32⟩
  | .hbm, ⟨50, _⟩ => ⟨S_, .f32⟩
  | .hbm, ⟨51, _⟩ => ⟨S8, .f32⟩
  | .hbm, ⟨52, _⟩ => ⟨S4194304x1, .i32⟩
  | .hbm, ⟨53, _⟩ => ⟨S8, .f32⟩
  | .hbm, ⟨54, _⟩ => ⟨S_, .f32⟩
  | .hbm, ⟨55, _⟩ => ⟨S4194304, .f32⟩
  | .hbm, ⟨56, _⟩ => ⟨S_, .f32⟩
  | .hbm, ⟨57, _⟩ => ⟨S8, .f32⟩
  | .hbm, ⟨58, _⟩ => ⟨S4194304x1, .i32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .i1⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S_, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v6 : Ref sig .tc := ⟨.hbm, 24, rfl⟩
abbrev main_v7 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_0 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_1 : Ref sig .tc := ⟨.hbm, 54, rfl⟩
abbrev main_v14 : Ref sig .tc := ⟨.hbm, 55, rfl⟩
abbrev main_cst_2 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_3 : Ref sig .tc := ⟨.hbm, 60, rfl⟩
abbrev main_v18 : Ref sig .tc := ⟨.hbm, 61, rfl⟩
abbrev main_v19 : Ref sig .tc := ⟨.hbm, 62, rfl⟩
abbrev main_cst_4 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_5 : Ref sig .tc := ⟨.hbm, 67, rfl⟩
abbrev main_call2_v0 : Ref sig .tc := ⟨.hbm, 68, rfl⟩
abbrev main_call2_v1 : Ref sig .tc := ⟨.hbm, 69, rfl⟩
abbrev main_v23 : Ref sig .tc := ⟨.hbm, 70, rfl⟩
abbrev main_v24 : Ref sig .tc := ⟨.hbm, 71, rfl⟩
abbrev main_cst_6 : Ref sig .tc := ⟨.hbm, 72, rfl⟩
abbrev main_v25 : Ref sig .tc := ⟨.hbm, 73, rfl⟩

abbrev nD : Nat := 1
abbrev τ : Topo := Topo.v7x

variable {F : FTy → Type} [FloatOps F]

class Facts₀ : Prop where
  reducesTo_S8_S_d0 : S8.ReducesTo [0] S_
  h_S_ : 0 < S_.numel
  bcast_S_S8 : S_.BroadcastsInDim S8 (![] : Fin 0 → Fin S8.rank)
  transposes_S16x8x512x512_S16x512x512x8_0_2_3_1 : S16x8x512x512.Transposes [0, 2, 3, 1] S16x512x512x8
  shapeCasts_S16x512x512x8_S4194304x8 : S16x512x512x8.ShapeCasts S4194304x8
  shapeCasts_S16x512x512_S4194304 : S16x512x512.ShapeCasts S4194304
  reducesTo_S4194304x8_S4194304_d1 : S4194304x8.ReducesTo [1] S4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x8_0_1 : S4194304x1.BroadcastsInDim S4194304x8 (![0, 1] : Fin 2 → Fin S4194304x8.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  shapeCasts_S4194304x1_S4194304 : S4194304x1.ShapeCasts S4194304
  gather_S4194304x8_S4194304x1x1_S4194304x1_n_1_0_0_1_2_11_wf : GatherDims.WF S4194304x8 S4194304x1x1 S4194304x1 [] [1] [0] [1] [0] 2 ![1, 1]
  scatter_S8_S4194304x1_S4194304_n_0_0_1_wf : ScatterDims.WF S8 S4194304x1 S4194304 [] [0] [0] 1

variable [Facts₀]

def gather_S4194304x8_S4194304x1x1_S4194304x1_n_1_0_0_1_2_11 : GatherDims S4194304x8 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x8_S4194304x1x1_S4194304x1_n_1_0_0_1_2_11_wf
def scatter_S8_S4194304x1_S4194304_n_0_0_1 : ScatterDims S8 S4194304x1 S4194304 where
  updateWindowDims := []
  insertedWindowDims := [0]
  scatterDimsToOperandDims := [0]
  indexVectorDim := 1
  wf := scatter_S8_S4194304x1_S4194304_n_0_0_1_wf

class Facts : Prop extends Facts₀ where

variable [Facts]
-- ==== Proof.Spec.lean ====
import Idealize.ShloMosaic.PureOps
import Idealize.ShloMosaic.PureOps.Ideal
import Idealize.ShloMosaic.Lib.ValueIdx

/-!
# The weighted cross-entropy, as one function of the three argument arrays

For logits `X : [16, 8, 512, 512]`, integer labels `L : [16, 512, 512]` and class weights
`cw : [8]`, both programs compute

  `∑ c, (cw c / ∑ cw) · (if N c > 0 then S c / max (N c) 1 else 0)`

where, over the pixels `(b, h, w)` whose label is the class `c`,
`S c` is the sum of `-log softmax(X[b, :, h, w]) c` and `N c` is their number.
A label outside `[0, 8)` belongs to no class: its pixel adds to no `S c` and no `N c`.

For one pixel the eight logits are a column `v : Fin 8 → EReal`;
`-log softmax v c = log (∑ c', exp (v c' - max v)) - (v c - max v)`.
-/

noncomputable section

namespace Cert.WCE

open Idealize.ShloMosaic Idealize.ShloMosaic.ValueIdx

abbrev SX : Shape := ⟨4, ![16, 8, 512, 512]⟩
abbrev SL : Shape := ⟨3, ![16, 512, 512]⟩
abbrev SC : Shape := ⟨1, ![8]⟩
abbrev S0 : Shape := ⟨0, ![]⟩

/-! ## One pixel -/

/-- The largest of a pixel's eight logits (the maximum over the empty start value `⊥`). -/
def colMax (v : Fin 8 → EReal) : EReal := (Finset.univ : Finset (Fin 8)).fold max ⊥ v

/-- A logit less the pixel's largest. -/
def colShift (v : Fin 8 → EReal) (c : Fin 8) : EReal := v c - colMax v

/-- The logarithm of the sum of the exponentials of the shifted logits. -/
def colLse (v : Fin 8 → EReal) : EReal := Ideal.log (∑ c : Fin 8, Ideal.exp (colShift v c))

/-- Minus the log-softmax of the pixel at class `c`. -/
def colLoss (v : Fin 8 → EReal) (c : Fin 8) : EReal := colLse v - colShift v c

/-! ## The arrays -/

/-- The eight logits of pixel `(b, h, w)`. -/
def colX (X : SX.Idx → EReal) (b : Fin 16) (h w : Fin 512) : Fin 8 → EReal := fun c => X (ix4 b c h w)

/-- Pixel `(b, h, w)` is labelled with class `c`: its label, read as a signed integer, is `c`. -/
def hit (L : SL.Idx → BitVec 32) (b : Fin 16) (h w : Fin 512) (c : Fin 8) : Prop :=
  (L (ix3 b h w)).toInt = (c.val : ℤ)

instance (L : SL.Idx → BitVec 32) (b : Fin 16) (h w : Fin 512) (c : Fin 8) : Decidable (hit L b h w c) := by
  unfold hit; infer_instance

/-- The sum over class `c`'s pixels of minus their log-softmax at `c`. -/
def pixSum (X : SX.Idx → EReal) (L : SL.Idx → BitVec 32) (c : Fin 8) : EReal :=
  ∑ b : Fin 16, ∑ h : Fin 512, ∑ w : Fin 512, if hit L b h w c then colLoss (colX X b h w) c else 0

/-- The number of class `c`'s pixels. -/
def pixCnt (L : SL.Idx → BitVec 32) (c : Fin 8) : EReal :=
  ∑ b : Fin 16, ∑ h : Fin 512, ∑ w : Fin 512, if hit L b h w c then (1 : EReal) else 0

/-- The position of pixel `(b, h, w)` among the 16 · 512 · 512 pixels laid out in row-major order. -/
def pix (b : Fin 16) (h w : Fin 512) : Fin 4194304 := ⟨b.val * 262144 + h.val * 512 + w.val, by omega⟩

def sums (X : SX.Idx → EReal) (L : SL.Idx → BitVec 32) : SC.Idx → EReal := fun i => pixSum X L (i 0)
def cnts (L : SL.Idx → BitVec 32) : SC.Idx → EReal := fun i => pixCnt L (i 0)

/-! ## From the per-class sums and counts to the loss

The last lines of both programs are the same operations in the same order: the weights divided by
their sum, the per-class mean where the class has a pixel and zero where it has none, and the
weighted sum of the means. They are kept as one term; nothing of the claim depends on opening it. -/

theorem bcast_S0_SC : S0.BroadcastsInDim SC (![] : Fin 0 → Fin SC.rank) := by decide
theorem reducesTo_SC_S0 : SC.ReducesTo [0] S0 := by decide
theorem h_S0 : 0 < S0.numel := by decide

def tail {F : FTy → Type} [FloatOps F] (cw S N : FVec F SC .f32) : FVec F S0 .f32 :=
  Host.reduceAdd
    (mulf
      (Host.divf cw (broadcastInDim SC ![] bcast_S0_SC (Host.reduceAdd cw (constant S0 .f32 0x00000000#32) reducesTo_SC_S0 h_S0)))
      (select (cmpf .ogt N (broadcastInDim SC ![] bcast_S0_SC (constant S0 .f32 0x00000000#32)))
        (Host.divf S (maximumf N (broadcastInDim SC ![] bcast_S0_SC (constant S0 .f32 0x3F800000#32))))
        (broadcastInDim SC ![] bcast_S0_SC (id (constant S0 .f32 0x00000000#32)))))
    (constant S0 .f32 0x00000000#32) reducesTo_SC_S0 h_S0

/-- The loss as one function of the argument arrays. -/
def loss (X : SX.Idx → EReal) (cw : SC.Idx → EReal) (L : SL.Idx → BitVec 32) : S0.Idx → EReal :=
  tail (F := Ideal) cw (sums X L) (cnts L)

end Cert.WCE

end
-- ==== Proof.RefScatter.lean ====
import proofs.«424199_j69483980915154_3_alg».proof.Proof.Gen.ReferenceIdeal
import proofs.«424199_j69483980915154_3_alg».proof.Proof.Spec
import Idealize.ShloMosaic.PureOps.Ideal.Laws
import Idealize.ShloMosaic.Lib.ValueIdx
import Idealize.ShloMosaic.Lib.ValueIdxRank1

noncomputable section

namespace Cert.ReferenceIdeal.Scatter

open Idealize.ShloMosaic Idealize.ShloMosaic.TcCoe Idealize.ShloMosaic.ValueIdx
open Cert.ReferenceIdeal Cert.ReferenceIdeal.Gen Cert.WCE

local notation "dS" => scatter_S8_S4194304x1_S4194304_n_0_0_1

/-! ## Where an update lands

The scatter has one operand axis (the eight classes), named by the one component of the start index and
inserted, so the window coordinate on it is `0`; the updates have one axis (the pixels), a scatter axis, and
update `j` reads its start index at `(j 0, 0)` of the scatter indices. -/

/-- A rank-1 update index has one coordinate. -/
theorem val_eq (j : S4194304.Idx) (x : Fin S4194304.rank) : (j x).val = (j 0).val := by
  match x with | ⟨0, _⟩ => rfl

/-- Update `j` reads the one component of its start index at `(j 0, 0)`. -/
theorem siIdx_eq (j : S4194304.Idx) (c : Fin (dS).scatterDimsToOperandDims.length) :
    (dS).siIdx j c = ix2 (j 0) 0 := by
  funext b
  match b with
  | ⟨0, h0⟩ =>
    apply Fin.ext
    have hne : ¬ ((⟨0, h0⟩ : Fin S4194304x1.rank).val = (dS).indexVectorDim) := by
      show ¬ ((0 : Nat) = 1)
      decide
    unfold ScatterDims.siIdx
    rw [dif_neg hne]
    unfold ScatterDims.siCoord
    exact val_eq j _
  | ⟨1, h1⟩ =>
    apply Fin.ext
    have he : (⟨1, h1⟩ : Fin S4194304x1.rank).val = (dS).indexVectorDim := rfl
    unfold ScatterDims.siIdx
    rw [dif_pos he]
    have : c.val < 1 := c.isLt
    show c.val = 0
    omega

/-- The operand has one axis. -/
theorem axis_eq (a : Fin S8.rank) : a = (0 : Fin 1) := by
  have : a.val < 1 := a.isLt
  apply Fin.ext
  show a.val = 0
  omega

/-- The window of update `j` starts, on the class axis, at its index read as a signed integer. -/
theorem start_eq (j : S4194304.Idx) (idx : IVec S4194304x1 32) (a : Fin S8.rank) :
    (dS).start j idx a = (idx (ix2 (j 0) 0)).toInt := by
  have ha : a ∈ (dS).scatterDimsToOperandDims := by
    rw [axis_eq a]; decide
  unfold ScatterDims.start
  rw [dif_pos ha]
  exact congrArg (fun k => (idx k).toInt) (siIdx_eq j _)

/-- The class axis is inserted: the window coordinate on it is `0`. -/
theorem window_eq (j : S4194304.Idx) (a : Fin S8.rank) : (dS).window j a = 0 := by
  have ha : ¬ a ∈ (dS).sKept := by
    rw [axis_eq a]; decide
  unfold ScatterDims.window
  rw [dif_neg ha]

/-- Update `j` lands on class `i` exactly when its index, read as a signed integer, is `i`
    (such an index is in `[0, 8)`, since `i` is). -/
theorem resultIdx_iff (idx : IVec S4194304x1 32) (j : S4194304.Idx) (i : S8.Idx) :
    (dS).resultIdx? j idx = some i ↔ (idx (ix2 (j 0) 0)).toInt = ((i 0).val : ℤ) := by
  have hi : (i 0).val < 8 := (i 0).isLt
  unfold ScatterDims.resultIdx?
  split
  · rename_i h
    rw [Option.some.injEq]
    constructor
    · intro e
      have h0 := h 0
      rw [start_eq, window_eq] at h0
      have := congrArg (fun f => (f 0).val) e
      simp only [start_eq, window_eq] at this
      omega
    · intro e
      funext a
      match a with
      | ⟨0, h0⟩ =>
        apply Fin.ext
        simp only [start_eq, window_eq]
        show _ = (i 0).val
        omega
  · rename_i h
    constructor
    · intro e; exact absurd e (by simp)
    · intro e
      exfalso
      apply h
      intro a
      rw [start_eq, window_eq, e]
      have : S8.size a = 8 := by rw [axis_eq a]; rfl
      omega

/-- The accumulating scatter of the reference, read at a class: update `p` lands on class `i` exactly when
    its index, read as a signed integer, is `i`; an index outside `[0, 8)` lands nowhere. -/
theorem scatterAdd_apply (x : FVec Ideal S8 .f32) (idx : IVec S4194304x1 32) (upd : FVec Ideal S4194304 .f32) (i : S8.Idx) :
    Host.scatterAdd (F := Ideal) scatter_S8_S4194304x1_S4194304_n_0_0_1 x idx upd i
      = x i + ∑ p : Fin 4194304, if (idx (ix2 p 0)).toInt = ((i 0).val : ℤ) then upd (ix1 p) else 0 := by
  show Ideal.hostScatterAdd (dS) x idx upd i = _
  unfold Ideal.hostScatterAdd
  refine congrArg (x i + ·) ?_
  -- the sum over the updates that land on `i` is the sum over all of them of the update or zero,
  -- and a rank-1 update index is its coordinate
  rw [Finset.sum_filter]
  refine Fintype.sum_equiv idxEquiv1 _ _ fun j => ?_
  obtain ⟨p, rfl⟩ : ∃ p, j = ix1 p := ⟨j 0, eq_ix1 j⟩
  have hiff := resultIdx_iff idx (ix1 p) i
  show _ = if (idx (ix2 p 0)).toInt = ((i 0).val : ℤ) then upd (ix1 p) else 0
  by_cases hc : (idx (ix2 p 0)).toInt = ((i 0).val : ℤ)
  · rw [if_pos hc, if_pos (hiff.2 hc)]
  · rw [if_neg hc, if_neg (fun h => hc (hiff.1 h))]

/-! ## The pixels in row-major order -/

/-- Position `b · 262144 + h · 512 + w` among the 16 · 512 · 512 pixels is a bijection from the triples
    of a sample, a row and a column: the inverse is the quotient by 262144, the quotient by 512 modulo 512,
    and the remainder modulo 512. -/
def pixEquiv : Fin 16 × Fin 512 × Fin 512 ≃ Fin 4194304 where
  toFun t := pix t.1 t.2.1 t.2.2
  invFun p := (⟨p.val / 262144, by omega⟩, ⟨p.val / 512 % 512, by omega⟩, ⟨p.val % 512, by omega⟩)
  left_inv t := by
    obtain ⟨b, h, w⟩ := t
    refine Prod.ext (Fin.ext ?_) (Prod.ext (Fin.ext ?_) (Fin.ext ?_))
    all_goals (dsimp only [pix]; omega)
  right_inv p := by
    apply Fin.ext
    dsimp only [pix]
    omega

/-- A sum over the 4,194,304 pixels in row-major order is the sum over samples, rows and columns. -/
theorem sum_pixels (g : Fin 4194304 → EReal) :
    ∑ p : Fin 4194304, g p = ∑ b : Fin 16, ∑ h : Fin 512, ∑ w : Fin 512, g (pix b h w) := by
  rw [← Equiv.sum_comp pixEquiv g, Fintype.sum_prod_type]
  refine Finset.sum_congr rfl fun b _ => ?_
  rw [Fintype.sum_prod_type]
  rfl

end Cert.ReferenceIdeal.Scatter

end
-- ==== Proof.RefPixel.lean ====
import proofs.«424199_j69483980915154_3_alg».proof.Proof.RefRead
import proofs.«424199_j69483980915154_3_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.Pixel

open Idealize.ShloMosaic Idealize.ShloMosaic.TcCoe Idealize.ShloMosaic.ValueIdx
open Cert.ReferenceIdeal Cert.ReferenceIdeal.Gen Cert.WCE Cert.ReferenceIdeal.ReadP

/-! ## The labels, flattened -/

/-- The flat labels at pixel `(b, h, w)`. -/
theorem lab5_at (L : IVec S16x512x512 32) (b : Fin 16) (h w : Fin 512) :
    val_main_v5 (F := Ideal) L (ix1 (pix b h w)) = L (ix3 b h w) := by
  rw [val_main_v5_apply]
  congr 1
  funext a
  refine Fin.ext ?_
  match a with
  | ⟨0, _⟩ => show (b.val * 262144 + h.val * 512 + w.val) / 262144 = b.val; omega
  | ⟨1, _⟩ => show (b.val * 262144 + h.val * 512 + w.val) / 512 % 512 = h.val; omega
  | ⟨2, _⟩ => show (b.val * 262144 + h.val * 512 + w.val) % 512 = w.val; omega

/-- The scatter index of pixel `(b, h, w)` is its label (both scatters read the same reshaped labels). -/
theorem idx12_at (L : IVec S16x512x512 32) (b : Fin 16) (h w : Fin 512) :
    val_main_v12 (F := Ideal) L (ix2 (pix b h w) 0) = L (ix3 b h w) := by
  rw [val_main_v12_apply, ← lab5_at L b h w]
  congr 1
  funext a
  match a with
  | ⟨0, _⟩ => rfl

theorem idx16_at (L : IVec S16x512x512 32) (b : Fin 16) (h w : Fin 512) :
    val_main_v16 (F := Ideal) L (ix2 (pix b h w) 0) = L (ix3 b h w) := by
  rw [val_main_v16_apply, ← lab5_at L b h w]
  congr 1
  funext a
  match a with
  | ⟨0, _⟩ => rfl

/-- The count scatter's update is one at every pixel. -/
theorem ones_at (p : Fin 4194304) : val_main_v14 (F := Ideal) (ix1 p) = (1 : EReal) := by
  rw [val_main_v14_apply, val_main_cst_1_apply, Ideal.ofBits_def]
  simp [Ideal.ofBits, Ideal.ieee, -EReal.coe_mul]
  norm_num

/-! ## The log-softmax of one pixel -/

/-- Row `pix b h w`, column `k` of the reshaped transposed logits is `X (b, k, h, w)`. -/
theorem v4_at (X : FVec Ideal S16x8x512x512 .f32) (b : Fin 16) (h w : Fin 512) (k : Fin 8) :
    val_main_v4 (F := Ideal) X (ix2 (pix b h w) k) = X (ix4 b k h w) := by
  rw [val_main_v4_apply, val_main_v3_apply]
  congr 1
  funext a
  refine Fin.ext ?_
  have hb := b.isLt; have hh := h.isLt; have hw := w.isLt; have hk := k.isLt
  match a with
  | ⟨0, _⟩ => show ((b.val * 262144 + h.val * 512 + w.val) * 8 + k.val) / 2097152 = b.val; omega
  | ⟨1, _⟩ => show ((b.val * 262144 + h.val * 512 + w.val) * 8 + k.val) % 8 = k.val; omega
  | ⟨2, _⟩ => show ((b.val * 262144 + h.val * 512 + w.val) * 8 + k.val) / 4096 % 512 = h.val; omega
  | ⟨3, _⟩ => show ((b.val * 262144 + h.val * 512 + w.val) * 8 + k.val) / 8 % 512 = w.val; omega

theorem reduces_d1 : S4194304x8.Reduces [1] S4194304 := by decide

/-- Over row `p`, the index whose column is `k`. -/
theorem lift_d1 (p : Fin 4194304) (k : Fin (S4194304x8.size 1)) :
    reduces_d1.lift (ix1 p) k = ix2 p (k : Fin 8) := by
  funext c
  refine Fin.ext ?_
  show reduces_d1.liftVal (ix1 p) k.val c = _
  match c with
  | ⟨0, _⟩ => rfl
  | ⟨1, _⟩ => rfl

theorem negInf_eq : Ideal.ofBits .f32 0xFF800000#32 = (⊥ : EReal) := by
  simp [Ideal.ofBits, Ideal.ieee]

/-- The row maximum at pixel `(b, h, w)` is the largest of the pixel's eight logits. -/
theorem max0_at (X : FVec Ideal S16x8x512x512 .f32) (b : Fin 16) (h w : Fin 512) :
    val_main_call0_v0 (F := Ideal) X (ix1 (pix b h w)) = colMax (colX X b h w) := by
  unfold val_main_call0_v0
  rw [Host.reduce_eq_fold_single FloatOps.maximumf _ _ reducesTo_S4194304x8_S4194304_d1 reduces_d1 h_S_]
  unfold colMax
  rw [val_main_call0_cst_apply, Ideal.ofBits_def, negInf_eq]
  refine Finset.fold_congr ?_
  intro k _
  exact (congrArg (val_main_v4 (F := Ideal) X) (lift_d1 (pix b h w) k)).trans (v4_at X b h w k)

/-- The maximum the shifted logits subtract: the row maximum again (the start value `-∞` changes nothing). -/
theorem max2_at (X : FVec Ideal S16x8x512x512 .f32) (b : Fin 16) (h w : Fin 512) :
    val_main_call0_v2 (F := Ideal) X (ix1 (pix b h w)) = colMax (colX X b h w) := by
  rw [val_main_call0_v2_apply, val_main_call0_v1_apply, val_main_call0_cst_0_apply, max0_at,
    Ideal.ofBits_def, negInf_eq, Ideal.maximumf_def]
  exact max_eq_right bot_le

/-- The shifted logit of pixel `(b, h, w)` at column `k`. -/
theorem shift_at (X : FVec Ideal S16x8x512x512 .f32) (b : Fin 16) (h w : Fin 512) (k : Fin 8) :
    val_main_call0_v5 (F := Ideal) X (ix2 (pix b h w) k) = colShift (colX X b h w) k := by
  rw [val_main_call0_v5_apply, v4_at, val_main_call0_v4_apply, val_main_call0_v3_apply, Ideal.subf_def]
  have hi : idx_main_call0_v3 (idx_main_call0_v4 (ix2 (pix b h w) k)) = ix1 (pix b h w) := by
    funext a
    match a with
    | ⟨0, _⟩ => rfl
  rw [hi, max2_at]
  rfl

/-- The sum of the exponentials of pixel `(b, h, w)`'s shifted logits. -/
theorem sumexp_at (X : FVec Ideal S16x8x512x512 .f32) (b : Fin 16) (h w : Fin 512) :
    val_main_call0_v7 (F := Ideal) X (ix1 (pix b h w)) = ∑ k : Fin 8, Ideal.exp (colShift (colX X b h w) k) := by
  rw [val_main_call0_v7_apply, val_main_call0_cst_1_apply, Ideal.ofBits_def, Ideal.ofBits_zero_f32, zero_add]
  refine Finset.sum_congr rfl fun k _ => ?_
  rw [val_main_call0_v6_apply, Ideal.hostUnary_exp_def]
  have hi : idx_main_call0_v7 (ix1 (pix b h w)) k = ix2 (pix b h w) k := by
    funext a
    match a with
    | ⟨0, _⟩ => rfl
    | ⟨1, _⟩ => rfl
  rw [hi, shift_at]

/-- The log-softmax of pixel `(b, h, w)` at column `k`. -/
theorem logsm_at (X : FVec Ideal S16x8x512x512 .f32) (b : Fin 16) (h w : Fin 512) (k : Fin 8) :
    val_main_v6 (F := Ideal) X (ix2 (pix b h w) k) = colShift (colX X b h w) k - colLse (colX X b h w) := by
  rw [val_main_v6_apply, shift_at, val_main_call0_v10_apply, val_main_call0_v9_apply, val_main_call0_v8_apply,
    Ideal.subf_def, Ideal.hostUnary_log_def]
  have hi : idx_main_call0_v8 (idx_main_call0_v10 (ix2 (pix b h w) k)) = ix1 (pix b h w) := by
    funext a
    match a with
    | ⟨0, _⟩ => rfl
  rw [hi, sumexp_at]
  rfl

/-! ## The label as the gather's index -/

/-- A label that is a class is not negative and at most seven (as signed words). -/
theorem label_slt_zero (l : BitVec 32) (cc : Fin 8) (hl : l.toInt = (cc.val : ℤ)) : IntOp.cmpi .slt l 0#32 = 0#1 := by
  have h : ¬ l.toInt < 0 := by rw [hl]; omega
  simp [IntOp.cmpi, BitVec.slt, h]

theorem label_sge_zero (l : BitVec 32) (cc : Fin 8) (hl : l.toInt = (cc.val : ℤ)) : IntOp.cmpi .sge l 0#32 = 1#1 := by
  have h : (0 : ℤ) ≤ l.toInt := by rw [hl]; omega
  simp [IntOp.cmpi, BitVec.sle, h]

theorem label_sle_seven (l : BitVec 32) (cc : Fin 8) (hl : l.toInt = (cc.val : ℤ)) : IntOp.cmpi .sle l 7#32 = 1#1 := by
  have h : l.toInt ≤ 7 := by rw [hl]; have := cc.isLt; omega
  have h7 : (7#32 : BitVec 32).toInt = 7 := by decide
  simp [IntOp.cmpi, BitVec.sle, h7, h]

theorem lab7_at (L : IVec S16x512x512 32) (b : Fin 16) (h w : Fin 512) :
    val_main_v7 (F := Ideal) L (ix2 (pix b h w) 0) = L (ix3 b h w) := by
  rw [val_main_v7_apply, ← lab5_at L b h w]
  congr 1
  funext a
  match a with
  | ⟨0, _⟩ => rfl

/-- The gather's index at a pixel labelled with a class is the label: nothing is added to it. -/
theorem gidx4_at (L : IVec S16x512x512 32) (b : Fin 16) (h w : Fin 512) (cc : Fin 8) (hhit : hit L b h w cc) :
    val_main_call1_v4 (F := Ideal) L (ix2 (pix b h w) 0) = L (ix3 b h w) := by
  rw [val_main_call1_v4_apply, val_main_call1_v1_apply, lab7_at, val_main_call1_v0_apply, val_main_call1_c_apply,
    label_slt_zero _ cc hhit, select_zero]

theorem gidx5_at (L : IVec S16x512x512 32) (b : Fin 16) (h w : Fin 512) (cc : Fin 8) (hhit : hit L b h w cc) :
    val_main_call1_v5 (F := Ideal) L (ix3 (pix b h w) (0 : Fin 1) (0 : Fin 1)) = L (ix3 b h w) := by
  rw [val_main_call1_v5_apply, ← gidx4_at L b h w cc hhit]
  congr 1
  funext a
  refine Fin.ext ?_
  match a with
  | ⟨0, _⟩ => show (((b.val * 262144 + h.val * 512 + w.val) * 1 + 0) * 1 + 0) / 1 = b.val * 262144 + h.val * 512 + w.val; omega
  | ⟨1, _⟩ => rfl

theorem reduces_d2 : S4194304x1x1.Reduces [2] S4194304x1 := by decide

/-- Over `(p, 0)`, the one index of the unit axis. -/
theorem lift_d2 (p : Fin 4194304) (k : Fin (S4194304x1x1.size 2)) :
    reduces_d2.lift (ix2 p (0 : Fin 1)) k = ix3 p (0 : Fin 1) (0 : Fin 1) := by
  funext c
  refine Fin.ext ?_
  show reduces_d2.liftVal (ix2 p (0 : Fin 1)) k.val c = _
  have hk : k.val = 0 := by have : k.val < 1 := k.isLt; omega
  match c with
  | ⟨0, _⟩ => rfl
  | ⟨1, _⟩ => rfl
  | ⟨2, _⟩ => exact hk

/-- A fold over a one-element range is one application. -/
theorem fold_fin_one {α : Type} (op : α → α → α) [Std.Commutative op] [Std.Associative op] (init : α) (f : Fin 1 → α) :
    (Finset.univ : Finset (Fin 1)).fold op init f = op (f 0) init := by
  rw [Finset.univ_unique, Finset.fold_singleton]; rfl

/-- At a pixel labelled with a class the gather's index is inside `[0, 7]`: the select keeps the gathered value. -/
theorem inrange_at (L : IVec S16x512x512 32) (b : Fin 16) (h w : Fin 512) (cc : Fin 8) (hhit : hit L b h w cc) :
    val_main_call1_v12 (F := Ideal) L (ix2 (pix b h w) (0 : Fin 1)) = 1#1 := by
  unfold val_main_call1_v12
  rw [Host.reduce_eq_fold_single IntOp.andi _ _ reducesTo_S4194304x1x1_S4194304x1_d2 reduces_d2 h_S_]
  refine (fold_fin_one IntOp.andi _ _).trans ?_
  have hl := lift_d2 (pix b h w) (0 : Fin 1)
  show IntOp.andi (val_main_call1_v11 (F := Ideal) L (reduces_d2.lift (ix2 (pix b h w) (0 : Fin 1)) (0 : Fin 1))) (val_main_call1_c_3 (F := Ideal) _) = 1#1
  rw [hl, val_main_call1_c_3_apply, val_main_call1_v11_apply, val_main_call1_v7_apply, val_main_call1_v10_apply,
    gidx5_at L b h w cc hhit, val_main_call1_v6_apply, val_main_call1_c_2_apply, val_main_call1_v9_apply,
    val_main_call1_v8_apply, val_main_call1_c_1_apply, label_sge_zero _ cc hhit, label_sle_seven _ cc hhit]
  rfl

/-- The gather read at `(p, 0)`: the operand at row `p` and the column the index names, read as a signed integer
    and clamped into `[0, 7]`. -/
theorem gather_at {α : Type} (x : S4194304x8.Idx → α) (idx : IVec S4194304x1x1 32) (p : Fin 4194304) (c : Fin 8)
    (hc : c.val = min (idx (ix3 p (0 : Fin 1) (0 : Fin 1))).toInt.toNat 7) :
    Host.gather gather_S4194304x8_S4194304x1x1_S4194304x1_n_1_0_0_1_2_11 x idx (ix2 p (0 : Fin 1)) = x (ix2 p c) := by
  unfold Host.gather
  congr 1
  funext a
  refine Fin.ext ?_
  match a with
  | ⟨0, _⟩ =>
    show gather_S4194304x8_S4194304x1x1_S4194304x1_n_1_0_0_1_2_11.start (ix2 p (0 : Fin 1)) idx 0
      + gather_S4194304x8_S4194304x1x1_S4194304x1_n_1_0_0_1_2_11.batchCoord (ix2 p (0 : Fin 1)) 0
      + gather_S4194304x8_S4194304x1x1_S4194304x1_n_1_0_0_1_2_11.offCoord (ix2 p (0 : Fin 1)) 0 = p.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show gather_S4194304x8_S4194304x1x1_S4194304x1_n_1_0_0_1_2_11.start (ix2 p (0 : Fin 1)) idx 1
      + gather_S4194304x8_S4194304x1x1_S4194304x1_n_1_0_0_1_2_11.batchCoord (ix2 p (0 : Fin 1)) 1
      + gather_S4194304x8_S4194304x1x1_S4194304x1_n_1_0_0_1_2_11.offCoord (ix2 p (0 : Fin 1)) 1 = c.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4194304x8_S4194304x1x1_S4194304x1_n_1_0_0_1_2_11.startIndexMap from List.mem_singleton.mpr rfl)]
    have hsi : gather_S4194304x8_S4194304x1x1_S4194304x1_n_1_0_0_1_2_11.siIdx (ix2 p (0 : Fin 1))
        ⟨List.idxOf (1 : Fin 2) gather_S4194304x8_S4194304x1x1_S4194304x1_n_1_0_0_1_2_11.startIndexMap,
          List.idxOf_lt_length_iff.2 (List.mem_singleton.mpr rfl)⟩ = ix3 p (0 : Fin 1) (0 : Fin 1) := by
      funext c; refine Fin.ext ?_
      match c with
      | ⟨0, _⟩ => rfl
      | ⟨1, _⟩ => rfl
      | ⟨2, _⟩ => rfl
    rw [hsi]
    exact hc.symm

/-! ## Finite logits: the negation of the difference -/

/-- The fold of `max` from `⊥` over a set of reals is `⊥` on the empty set and a real otherwise. -/
theorem fold_max_real (v : Fin 8 → EReal) (hv : ∀ c, ∃ r : ℝ, v c = (r : EReal)) (S : Finset (Fin 8)) :
    (S = ∅ ∧ S.fold max ⊥ v = ⊥) ∨ ∃ M : ℝ, S.fold max ⊥ v = (M : EReal) := by
  induction S using Finset.induction_on with
  | empty => exact Or.inl ⟨rfl, Finset.fold_empty⟩
  | insert a S ha ih =>
    right
    rw [Finset.fold_insert ha]
    obtain ⟨r, hr⟩ := hv a
    rcases ih with ⟨_, h0⟩ | ⟨M, hM⟩
    · exact ⟨r, by rw [h0, hr]; exact max_eq_left bot_le⟩
    · rw [hM, hr]
      rcases le_total r M with hle | hle
      · exact ⟨M, max_eq_right (EReal.coe_le_coe_iff.2 hle)⟩
      · exact ⟨r, max_eq_left (EReal.coe_le_coe_iff.2 hle)⟩

/-- The largest of eight finite logits is finite. -/
theorem colMax_real (v : Fin 8 → EReal) (hv : ∀ c, ∃ r : ℝ, v c = (r : EReal)) : ∃ M : ℝ, colMax v = (M : EReal) := by
  rcases fold_max_real v hv Finset.univ with ⟨he, _⟩ | hM
  · exact absurd he Finset.univ_nonempty.ne_empty
  · exact hM

/-- So is each shifted logit. -/
theorem colShift_real (v : Fin 8 → EReal) (hv : ∀ c, ∃ r : ℝ, v c = (r : EReal)) (c : Fin 8) :
    ∃ r : ℝ, colShift v c = (r : EReal) := by
  obtain ⟨M, hM⟩ := colMax_real v hv
  obtain ⟨r, hr⟩ := hv c
  exact ⟨r - M, by unfold colShift; rw [hM, hr, EReal.coe_sub]⟩

/-- The loss scatter's update at a pixel labelled `cc` (a label inside `[0, 8)`: no wrap-around, no fill
    value) is minus the pixel's log-softmax at `cc`, for finite logits. -/
theorem upd_at (X : FVec Ideal S16x8x512x512 .f32) (L : IVec S16x512x512 32)
    (hfin : ∀ i, ∃ r : ℝ, X i = (r : EReal)) (b : Fin 16) (h w : Fin 512) (cc : Fin 8) (hhit : hit L b h w cc) :
    val_main_v10 (F := Ideal) X L (ix1 (pix b h w)) = colLoss (colX X b h w) cc := by
  have hh : (L (ix3 b h w)).toInt = (cc.val : ℤ) := hhit
  rw [val_main_v10_apply, val_main_v9_apply, Ideal.hostNegf_def, Ideal.negf_def]
  have hi : idx_main_v9 (ix1 (pix b h w)) = ix2 (pix b h w) (0 : Fin 1) := by
    funext a
    refine Fin.ext ?_
    match a with
    | ⟨0, _⟩ => show (b.val * 262144 + h.val * 512 + w.val) / 1 = b.val * 262144 + h.val * 512 + w.val; omega
    | ⟨1, _⟩ => rfl
  rw [hi, val_main_v8_apply, inrange_at L b h w cc hhit, select_one]
  unfold val_main_call1_v13
  rw [gather_at _ _ _ cc (by rw [gidx5_at L b h w cc hhit, hh]; have := cc.isLt; simp; omega), logsm_at]
  obtain ⟨r, hr⟩ := colShift_real (colX X b h w) (fun c => hfin _) cc
  unfold colLoss
  rw [hr, EReal.neg_sub (Or.inl (EReal.coe_ne_bot _)) (Or.inl (EReal.coe_ne_top _)), add_comm, sub_eq_add_neg]

end Cert.ReferenceIdeal.Pixel

end
-- ==== Proof.RefValue.lean ====
import proofs.«424199_j69483980915154_3_alg».proof.Proof.RefRead
import proofs.«424199_j69483980915154_3_alg».proof.Proof.RefScatter
import proofs.«424199_j69483980915154_3_alg».proof.Proof.RefPixel
import proofs.«424199_j69483980915154_3_alg».proof.Proof.Spec
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.WCE Cert.ReferenceIdeal.ReadP

/-- The reference's last operations are the shared closing term of its class weights, its per-class loss
    sums and its per-class counts (the two accumulating scatters). -/
theorem tail_eq {F : FTy → Type} [FloatOps F] (X : FVec F S16x8x512x512 .f32) (cw : FVec F S8 .f32) (L : IVec S16x512x512 32) :
    val_main_v25 (F := F) X cw L = tail (F := F) cw (val_main_v13 (F := F) X L) (val_main_v17 (F := F) L) := rfl

/-- The start value of both scatters is zero at every class. -/
theorem v11_zero (i : S8.Idx) : val_main_v11 (F := Ideal) i = 0 := Ideal.ofBits_zero_f32
theorem v15_zero (i : S8.Idx) : val_main_v15 (F := Ideal) i = 0 := Ideal.ofBits_zero_f32

/-- The loss scatter adds, to class `c`, minus the log-softmax at `c` of every pixel labelled `c`. -/
theorem v13_eq (X : FVec Ideal S16x8x512x512 .f32) (L : IVec S16x512x512 32)
    (hfin : ∀ i, ∃ r : ℝ, X i = (r : EReal)) : val_main_v13 (F := Ideal) X L = sums X L := by
  funext i
  unfold val_main_v13
  rw [Scatter.scatterAdd_apply, v11_zero, zero_add, Scatter.sum_pixels]
  unfold sums pixSum
  refine Finset.sum_congr rfl fun b _ => Finset.sum_congr rfl fun h _ => Finset.sum_congr rfl fun w _ => ?_
  rw [Pixel.idx12_at]
  by_cases hh : hit L b h w (i 0)
  · rw [if_pos hh, if_pos (show (L (ix3 b h w)).toInt = ((i 0).val : ℤ) from hh), Pixel.upd_at X L hfin b h w (i 0) hh]
  · rw [if_neg hh, if_neg (show ¬ (L (ix3 b h w)).toInt = ((i 0).val : ℤ) from hh)]

/-- The count scatter adds one to class `c` for every pixel labelled `c`. -/
theorem v17_eq (L : IVec S16x512x512 32) : val_main_v17 (F := Ideal) L = cnts L := by
  funext i
  unfold val_main_v17
  rw [Scatter.scatterAdd_apply, v15_zero, zero_add, Scatter.sum_pixels]
  unfold cnts pixCnt
  refine Finset.sum_congr rfl fun b _ => Finset.sum_congr rfl fun h _ => Finset.sum_congr rfl fun w _ => ?_
  rw [Pixel.idx16_at, Pixel.ones_at]
  rfl

/-- The reference's result, for finite logits, is the loss of the argument arrays. -/
theorem ref_value (X : FVec Ideal S16x8x512x512 .f32) (cw : FVec Ideal S8 .f32) (L : IVec S16x512x512 32)
    (hfin : ∀ i, ∃ r : ℝ, X i = (r : EReal)) :
    val_main_v25 (F := Ideal) X cw L = Cert.WCE.loss X cw L := by
  rw [tail_eq, v13_eq X L hfin, v17_eq L]
  rfl

end Cert.ReferenceIdeal.RefValue

end
-- ==== Proof.Payload.lean ====
import proofs.«424199_j69483980915154_3_alg».proof.Proof.Gen.KernelIdeal.Skeleton
import proofs.«424199_j69483980915154_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen Cert.WCE

/-! ## The layout operations at explicit coordinates -/

section Layout
variable {α : Type}

/-- A `[1, 128, 512]` array viewed `[1, 1, 128, 512]` reads `(0, r, w)` at `(0, 0, r, w)`. -/
theorem cast_row (x : S1x128x512.Idx → α) (r : Fin 128) (w : Fin 512) :
    shapeCast S1x1x128x512 x shapeCasts_S1x128x512_S1x1x128x512 (ix4 0 0 r w) = x (ix3 0 r w) :=
  shapeCast_abc_1abc_apply x _ 0 0 r w

/-- A `[1, 8, 128]` array viewed `[1, 8, 128, 1]` reads `(0, c, r)` at `(0, c, r, 0)`. -/
theorem cast_lane (x : S1x8x128.Idx → α) (c : Fin 8) (r : Fin 128) :
    shapeCast S1x8x128x1 x shapeCasts_S1x8x128_S1x8x128x1 (ix4 0 c r 0) = x (ix3 0 c r) :=
  shapeCast_apply x _ _ _ (by
    rw [Shape.rowMajor_val_four, Shape.rowMajor_val_three]
    show ((0 * 8 + c.val) * 128 + r.val) = (((0 * 8 + c.val) * 128 + r.val) * 1 + 0)
    omega)

/-- A `[1, 8, 1]` array viewed `[1, 8, 1, 1]` reads `(0, c, 0)` at `(0, c, 0, 0)`. -/
theorem cast_cls (x : S1x8x1.Idx → α) (c : Fin 8) :
    shapeCast S1x8x1x1 x shapeCasts_S1x8x1_S1x8x1x1 (ix4 0 c 0 0) = x (ix3 0 c 0) :=
  shapeCast_apply x _ _ _ (by
    rw [Shape.rowMajor_val_four, Shape.rowMajor_val_three]
    show ((0 * 8 + c.val) * 1 + 0) = (((0 * 8 + c.val) * 1 + 0) * 1 + 0)
    omega)

/-- A `[1, 1, 128, 512]` array broadcast over the eight classes reads its one class. -/
theorem bcast_cls (x : S1x1x128x512.Idx → α) (c : Fin 8) (r : Fin 128) (w : Fin 512) :
    broadcastTo S1x8x128x512 x broadcasts_S1x1x128x512_S1x8x128x512 (ix4 0 c r w) = x (ix4 0 0 r w) := by
  refine broadcastTo_apply x _ _ _ fun a => ?_
  match a with
  | ⟨0, _⟩ => rfl
  | ⟨1, _⟩ => rfl
  | ⟨2, _⟩ => rfl
  | ⟨3, _⟩ => rfl

/-- A `[1, 8, 1, 1]` array broadcast over the rows and columns reads its one row and column. -/
theorem bcast_pix (x : S1x8x1x1.Idx → α) (c : Fin 8) (r : Fin 128) (w : Fin 512) :
    broadcastTo S1x8x128x512 x broadcasts_S1x8x1x1_S1x8x128x512 (ix4 0 c r w) = x (ix4 0 c 0 0) := by
  refine broadcastTo_apply x _ _ _ fun a => ?_
  match a with
  | ⟨0, _⟩ => rfl
  | ⟨1, _⟩ => rfl
  | ⟨2, _⟩ => rfl
  | ⟨3, _⟩ => rfl

end Layout

/-! ## The reductions' inserted indices -/

/-- Over pixel `(r, w)`, the index with class `k` inserted is `(0, k, r, w)`. -/
theorem lift_cls (r : Fin 128) (w : Fin 512) (k : Fin 8) :
    reduces_S1x8x128x512_S1x128x512.lift (ix3 0 r w) k = ix4 0 k r w := by
  funext a; refine Fin.ext ?_
  match a with
  | ⟨0, _⟩ => rfl
  | ⟨1, _⟩ => rfl
  | ⟨2, _⟩ => rfl
  | ⟨3, _⟩ => rfl

/-- Over `(0, c, r)`, the index with column `w` inserted is `(0, c, r, w)`. -/
theorem lift_col (c : Fin 8) (r : Fin 128) (w : Fin 512) :
    reduces_S1x8x128x512_S1x8x128.lift (ix3 0 c r) w = ix4 0 c r w := by
  funext a; refine Fin.ext ?_
  match a with
  | ⟨0, _⟩ => rfl
  | ⟨1, _⟩ => rfl
  | ⟨2, _⟩ => rfl
  | ⟨3, _⟩ => rfl

/-- Over `(0, c, 0)`, the index with row `r` inserted is `(0, c, r, 0)`. -/
theorem lift_row (c : Fin 8) (r : Fin 128) :
    reduces_S1x8x128x1_S1x8x1.lift (ix3 0 c 0) r = ix4 0 c r 0 := by
  funext a; refine Fin.ext ?_
  match a with
  | ⟨0, _⟩ => rfl
  | ⟨1, _⟩ => rfl
  | ⟨2, _⟩ => rfl
  | ⟨3, _⟩ => rfl

/-! ## The reductions as sums and folds -/

/-- The sum over the class axis at pixel `(r, w)`. -/
theorem sum_cls (x : FVec Ideal S1x8x128x512 .f32) (r : Fin 128) (w : Fin 512) :
    multiReduction .add [1] S1x128x512 x 0x00000000#32 reduces_S1x8x128x512_S1x128x512 (.inl rfl) rfl (ix3 0 r w)
      = ∑ k : Fin 8, x (ix4 0 k r w) := by
  refine (Ideal.multiReduction_add_single x _ _ _ _ _).trans ?_
  exact Finset.sum_congr rfl fun k _ => congrArg x (lift_cls r w k)

/-- The sum over the column axis at class `c` and row `r`. -/
theorem sum_col (x : FVec Ideal S1x8x128x512 .f32) (c : Fin 8) (r : Fin 128) :
    multiReduction .add [3] S1x8x128 x 0x00000000#32 reduces_S1x8x128x512_S1x8x128 (.inl rfl) rfl (ix3 0 c r)
      = ∑ w : Fin 512, x (ix4 0 c r w) := by
  refine (Ideal.multiReduction_add_single x _ _ _ _ _).trans ?_
  exact Finset.sum_congr rfl fun w _ => congrArg x (lift_col c r w)

/-- The sum over the row axis at class `c`. -/
theorem sum_row (x : FVec Ideal S1x8x128x1 .f32) (c : Fin 8) :
    multiReduction .add [2] S1x8x1 x 0x00000000#32 reduces_S1x8x128x1_S1x8x1 (.inl rfl) rfl (ix3 0 c 0)
      = ∑ r : Fin 128, x (ix4 0 c r 0) := by
  refine (Ideal.multiReduction_add_single x _ _ _ _ _).trans ?_
  exact Finset.sum_congr rfl fun r _ => congrArg x (lift_row c r)

/-- The pattern `0xFF800000` is minus infinity. -/
theorem ofBits_neg_inf : Ideal.ofBits .f32 0xFF800000#32 = ⊥ := by simp [Ideal.ofBits, Ideal.ieee]

/-- The maximum over the class axis at pixel `(r, w)` is the pixel's largest logit. -/
theorem max_cls (x : FVec Ideal S1x8x128x512 .f32) (r : Fin 128) (w : Fin 512) :
    multiReduction .maximumf [1] S1x128x512 x 0xFF800000#32 reduces_S1x8x128x512_S1x128x512 (.inl rfl) rfl (ix3 0 r w)
      = colMax (fun k => x (ix4 0 k r w)) := by
  refine (Ideal.multiReduction_maximumf_single x _ _ _ _ _).trans ?_
  unfold colMax
  rw [Ideal.ofBits_def, ofBits_neg_inf]
  have e : (x ∘ reduces_S1x8x128x512_S1x128x512.lift (ix3 0 r w)) = fun k => x (ix4 0 k r w) :=
    funext fun k => congrArg x (lift_cls r w k)
  rw [e]
  rfl

/-! ## The class mask -/

/-- A 32-bit word is the class number `c` exactly when it reads, signed, as `c`. -/
theorem ofNat_eq_iff (c : Fin 8) (x : BitVec 32) : BitVec.ofNat 32 c.val = x ↔ x.toInt = (c.val : ℤ) := by
  have hc : (BitVec.ofNat 32 c.val).toInt = (c.val : ℤ) := by
    rw [BitVec.toInt_eq_toNat_cond, BitVec.toNat_ofNat]
    have := c.isLt
    omega
  constructor
  · rintro rfl; exact hc
  · intro h; exact (BitVec.toInt_inj.mp (h.trans hc.symm)).symm

/-- The mask at `(0, c, r, w)` chooses its first operand exactly when pixel `(r, w)` is labelled `c`. -/
theorem mask_select {α : Type} (v11 : Vec Ideal S1x128x512 .i32) (c : Fin 8) (r : Fin 128) (w : Fin 512) (a b : α) :
    Scalar.select (k0_pay3 (F := Ideal) v11 (ix4 0 c r w)) a b
      = if (v11 (ix3 0 r w)).toInt = (c.val : ℤ) then a else b := by
  unfold k0_pay3
  show Scalar.select (IntOp.cmpi .eq
      (broadcastTo S1x8x128x512 (iota .tc S1x8x1x1 32 [1] iota_S1x8x1x1_d1_w32) broadcasts_S1x8x1x1_S1x8x128x512 (ix4 0 c r w))
      (broadcastTo S1x8x128x512 (shapeCast S1x1x128x512 v11 shapeCasts_S1x128x512_S1x1x128x512)
        broadcasts_S1x1x128x512_S1x8x128x512 (ix4 0 c r w))) a b = _
  rw [bcast_pix, bcast_cls, cast_row, iota_single_apply]
  show (if BitVec.ofBool (BitVec.ofNat 32 c.val == v11 (ix3 0 r w)) = 1 then a else b) = _
  by_cases h : (v11 (ix3 0 r w)).toInt = (c.val : ℤ)
  · rw [if_pos h, (ofNat_eq_iff c _).mpr h]; simp
  · rw [if_neg h]
    have h' : ¬ BitVec.ofNat 32 c.val = v11 (ix3 0 r w) := fun e => h ((ofNat_eq_iff c _).mp e)
    rw [beq_false_of_ne h']
    exact if_neg (by decide)

/-! ## One pixel's column of the block -/

/-- The block's logits less each pixel's largest. -/
def shiftedBlk (v9 : FVec Ideal S1x8x128x512 .f32) : FVec Ideal S1x8x128x512 .f32 :=
  subf v9 (broadcastTo S1x8x128x512
    (shapeCast S1x1x128x512
      (multiReduction .maximumf [1] S1x128x512 v9 0xFF800000#32 reduces_S1x8x128x512_S1x128x512 (.inl rfl) rfl)
      shapeCasts_S1x128x512_S1x1x128x512)
    broadcasts_S1x1x128x512_S1x8x128x512)

/-- The block's minus log-softmax. -/
def lossBlk (v9 : FVec Ideal S1x8x128x512 .f32) : FVec Ideal S1x8x128x512 .f32 :=
  subf (broadcastTo S1x8x128x512
    (log (shapeCast S1x1x128x512
      (multiReduction .add [1] S1x128x512 (exp (shiftedBlk v9)) 0x00000000#32 reduces_S1x8x128x512_S1x128x512 (.inl rfl) rfl)
      shapeCasts_S1x128x512_S1x1x128x512))
    broadcasts_S1x1x128x512_S1x8x128x512) (shiftedBlk v9)

/-- At `(0, c, r, w)` the shifted block is the pixel's shifted logit at `c`. -/
theorem shiftedBlk_apply (v9 : FVec Ideal S1x8x128x512 .f32) (c : Fin 8) (r : Fin 128) (w : Fin 512) :
    shiftedBlk v9 (ix4 0 c r w) = colShift (fun k => v9 (ix4 0 k r w)) c := by
  unfold shiftedBlk
  rw [subf_apply, bcast_cls, cast_row, max_cls]
  rfl

/-- At `(0, c, r, w)` the loss block is minus the pixel's log-softmax at `c`. -/
theorem lossBlk_apply (v9 : FVec Ideal S1x8x128x512 .f32) (c : Fin 8) (r : Fin 128) (w : Fin 512) :
    lossBlk v9 (ix4 0 c r w) = colLoss (fun k => v9 (ix4 0 k r w)) c := by
  unfold lossBlk
  rw [subf_apply, bcast_cls, shiftedBlk_apply]
  show Ideal.log (shapeCast S1x1x128x512
      (multiReduction .add [1] S1x128x512 (exp (shiftedBlk v9)) 0x00000000#32 reduces_S1x8x128x512_S1x128x512 (.inl rfl) rfl)
      shapeCasts_S1x128x512_S1x1x128x512 (ix4 0 0 r w)) - _ = _
  rw [cast_row, sum_cls]
  unfold colLoss colLse
  refine congrArg (fun z => Ideal.log z - colShift (fun k => v9 (ix4 0 k r w)) c) ?_
  refine Finset.sum_congr rfl fun k _ => ?_
  show Ideal.exp (shiftedBlk v9 (ix4 0 k r w)) = _
  rw [shiftedBlk_apply]

/-! ## The two payloads -/

/-- The loss payload as one term: the accumulator plus the masked loss block summed over columns, then rows. -/
theorem pay4_eq (acc : FVec Ideal S1x8x1x1 .f32) (v9 : Vec Ideal S1x8x128x512 .f32) (v11 : Vec Ideal S1x128x512 .i32) :
    k0_pay4 (F := Ideal) acc v9 v11
      = addf acc (shapeCast S1x8x1x1
          (multiReduction .add [2] S1x8x1
            (shapeCast S1x8x128x1
              (multiReduction .add [3] S1x8x128
                (select (k0_pay3 (F := Ideal) v11) (lossBlk v9) (broadcast S1x8x128x512 (Scalar.ofBits (F := Ideal) .f32 0x00000000#32)))
                0x00000000#32 reduces_S1x8x128x512_S1x8x128 (.inl rfl) rfl)
              shapeCasts_S1x8x128_S1x8x128x1)
            0x00000000#32 reduces_S1x8x128x1_S1x8x1 (.inl rfl) rfl)
          shapeCasts_S1x8x1_S1x8x1x1) := rfl

/-- One trip's addition to the per-class loss sums: over the trip's 128 rows and 512 columns, the
    pixels labelled `c` add minus their log-softmax at `c`. -/
theorem pay_sum (acc : FVec Ideal S1x8x1x1 .f32) (v9 : Vec Ideal S1x8x128x512 .f32) (v11 : Vec Ideal S1x128x512 .i32) (c : Fin 8) :
    k0_pay4 (F := Ideal) acc v9 v11 (ix4 0 c 0 0)
      = acc (ix4 0 c 0 0) + ∑ r : Fin 128, ∑ w : Fin 512,
          if (v11 (ix3 0 r w)).toInt = (c.val : ℤ) then colLoss (fun c' => v9 (ix4 0 c' r w)) c else 0 := by
  rw [pay4_eq, addf_apply, cast_cls, sum_row]
  refine congrArg (fun z => acc (ix4 0 c 0 0) + z) (Finset.sum_congr rfl fun r _ => ?_)
  rw [cast_lane, sum_col]
  refine Finset.sum_congr rfl fun w _ => ?_
  rw [select_apply, mask_select, lossBlk_apply, broadcast_apply]
  show (if _ then _ else Ideal.ofBits .f32 0x00000000#32) = _
  rw [Ideal.ofBits_zero_f32]

/-- The count payload as one term: the accumulator plus the mask, as numbers, summed over columns, then rows. -/
theorem pay5_eq (acc : FVec Ideal S1x8x1x1 .f32) (v11 : Vec Ideal S1x128x512 .i32) :
    k0_pay5 (F := Ideal) acc v11
      = addf acc (shapeCast S1x8x1x1
          (multiReduction .add [2] S1x8x1
            (shapeCast S1x8x128x1
              (multiReduction .add [3] S1x8x128
                (sitofp .f32 (extui 32 (k0_pay3 (F := Ideal) v11) natLt_1_32))
                0x00000000#32 reduces_S1x8x128x512_S1x8x128 (.inl rfl) rfl)
              shapeCasts_S1x8x128_S1x8x128x1)
            0x00000000#32 reduces_S1x8x128x1_S1x8x1 (.inl rfl) rfl)
          shapeCasts_S1x8x1_S1x8x1x1) := rfl

/-- The mask's bit widened and converted: one on the mask, zero off it. -/
theorem mask_count (v11 : Vec Ideal S1x128x512 .i32) (c : Fin 8) (r : Fin 128) (w : Fin 512) :
    (sitofp .f32 (extui 32 (k0_pay3 (F := Ideal) v11) natLt_1_32) : FVec Ideal S1x8x128x512 .f32) (ix4 0 c r w)
      = if (v11 (ix3 0 r w)).toInt = (c.val : ℤ) then (1 : EReal) else 0 := by
  rw [sitofp_apply, extui_apply]
  show (((((k0_pay3 (F := Ideal) v11 (ix4 0 c r w)).setWidth 32).toInt : ℤ) : ℝ) : EReal) = _
  have hsel := mask_select v11 c r w (1#1) (0#1)
  have hbit : k0_pay3 (F := Ideal) v11 (ix4 0 c r w)
      = if (v11 (ix3 0 r w)).toInt = (c.val : ℤ) then 1#1 else 0#1 := by
    rw [← hsel]
    unfold Scalar.select
    split
    · assumption
    · exact eq_zero_of_ne_one ‹_›
  rw [hbit]
  split
  · norm_num
  · norm_num

/-- One trip's addition to the per-class pixel counts. -/
theorem pay_cnt (acc : FVec Ideal S1x8x1x1 .f32) (v11 : Vec Ideal S1x128x512 .i32) (c : Fin 8) :
    k0_pay5 (F := Ideal) acc v11 (ix4 0 c 0 0)
      = acc (ix4 0 c 0 0) + ∑ r : Fin 128, ∑ w : Fin 512,
          if (v11 (ix3 0 r w)).toInt = (c.val : ℤ) then (1 : EReal) else 0 := by
  rw [pay5_eq, addf_apply, cast_cls, sum_row]
  refine congrArg (fun z => acc (ix4 0 c 0 0) + z) (Finset.sum_congr rfl fun r _ => ?_)
  rw [cast_lane, sum_col]
  exact Finset.sum_congr rfl fun w _ => mask_count v11 c r w

end Cert.KernelIdeal.Payload

end
-- ==== Proof.KLoop.lean ====
import proofs.«424199_j69483980915154_3_alg».proof.Proof.Gen.KernelIdeal.Frame
import proofs.«424199_j69483980915154_3_alg».proof.Proof.Payload
import proofs.«424199_j69483980915154_3_alg».proof.Proof.Spec

/-!
# One grid point of the kernel: four trips over 128 rows each

The kernel's body keeps two per-class accumulators in registers through a loop of four trips; trip `k` loads
rows `128 k … 128 k + 127` of the point's logits and labels and adds, per class, the masked losses and the
mask over those rows. After the loop the two accumulators are stored whole. So the block a point leaves is
`(((0 + T₀) + T₁) + T₂) + T₃` with `T_k` the sum over the trip's rows, which is the sum over all 512 rows.
-/

set_option maxRecDepth 16384

noncomputable section

namespace Cert.KernelIdeal.Loop

open Idealize.ShloMosaic Idealize.ShloMosaic.TcCoe Idealize.ShloMosaic.ValueIdx
open Idealize.SL Idealize.SL.Sem
open Cert.KernelIdeal Cert.KernelIdeal.Gen Cert.WCE

variable {F : FTy → Type} [FloatOps F]

theorem trips_eq : k0_t1_loop.trips = 4 := by decide

section
variable (𝒱 : Variants) (c : Dev nD) (bd : Option 𝒱.V) (i : grid0.Coords) (arg1 : Memref sig .tc .vmem S1x8x512x512 .f32) (harg1 : arg1.IsWhole) (arg2 : Memref sig .tc .vmem S1x512x512 .i32) (harg2 : arg2.IsWhole) (arg3 : Memref sig .tc .vmem S1x8x1x1 .f32) (harg3 : arg3.IsWhole) (arg4 : Memref sig .tc .vmem S1x8x1x1 .f32) (harg4 : arg4.IsWhole)
  (X1 : BufTy.Contents (Elt F) arg1.view.ty) (X2 : BufTy.Contents (Elt F) arg2.view.ty)

/-- The 128 rows of the logits block that trip `k` loads, and of the label block. -/
abbrev rowsX (k : Fin k0_t1_loop.trips) : Vec F S1x8x128x512 .f32 :=
  View.readAt (Elt F) arg1.view (Rect.unit (s := S1x8x512x512) (k0_off1 k) S1x8x128x512.size (k0_off1_inb k)).toLoadRect X1
abbrev rowsL (k : Fin k0_t1_loop.trips) : Vec F S1x128x512 .i32 :=
  View.readAt (Elt F) arg2.view (Rect.unit (s := S1x512x512) (k0_off2 k) S1x128x512.size (k0_off2_inb k)).toLoadRect X2

theorem tripR_eq (k : Fin k0_t1_loop.trips) (acc : FVec F S1x8x1x1 .f32 × FVec F S1x8x1x1 .f32) :
    tripR_k0_t1 (F := F) 𝒱 c bd i arg1 harg1 arg2 harg2 arg3 harg3 arg4 harg4 X1 X2 k acc
      = (k0_pay4 acc.1 (rowsX arg1 X1 k) (rowsL arg2 X2 k), k0_pay5 acc.2 (rowsL arg2 X2 k)) := by
  unfold tripR_k0_t1 trip_k0_t1
  rfl

theorem lt0 : 0 < k0_t1_loop.trips := by rw [trips_eq]; omega
theorem lt1 : 1 < k0_t1_loop.trips := by rw [trips_eq]; omega
theorem lt2 : 2 < k0_t1_loop.trips := by rw [trips_eq]; omega
theorem lt3 : 3 < k0_t1_loop.trips := by rw [trips_eq]; omega

/-- The value the loop carries out of its fourth trip: the four trips applied in turn to the initial value. -/
theorem st_four (init : FVec F S1x8x1x1 .f32 × FVec F S1x8x1x1 .f32) :
    st_k0_t1 (F := F) 𝒱 c bd i arg1 harg1 arg2 harg2 arg3 harg3 arg4 harg4 X1 X2 init 4
      = tripR_k0_t1 (F := F) 𝒱 c bd i arg1 harg1 arg2 harg2 arg3 harg3 arg4 harg4 X1 X2 ⟨3, lt3⟩
          (tripR_k0_t1 (F := F) 𝒱 c bd i arg1 harg1 arg2 harg2 arg3 harg3 arg4 harg4 X1 X2 ⟨2, lt2⟩
            (tripR_k0_t1 (F := F) 𝒱 c bd i arg1 harg1 arg2 harg2 arg3 harg3 arg4 harg4 X1 X2 ⟨1, lt1⟩
              (tripR_k0_t1 (F := F) 𝒱 c bd i arg1 harg1 arg2 harg2 arg3 harg3 arg4 harg4 X1 X2 ⟨0, lt0⟩ init))) := by
  have e3 := st_k0_t1_succ (F := F) 𝒱 c bd i arg1 harg1 arg2 harg2 arg3 harg3 arg4 harg4 X1 X2 init ⟨3, lt3⟩
  have e2 := st_k0_t1_succ (F := F) 𝒱 c bd i arg1 harg1 arg2 harg2 arg3 harg3 arg4 harg4 X1 X2 init ⟨2, lt2⟩
  have e1 := st_k0_t1_succ (F := F) 𝒱 c bd i arg1 harg1 arg2 harg2 arg3 harg3 arg4 harg4 X1 X2 init ⟨1, lt1⟩
  have e0 := st_k0_t1_succ (F := F) 𝒱 c bd i arg1 harg1 arg2 harg2 arg3 harg3 arg4 harg4 X1 X2 init ⟨0, lt0⟩
  rw [st_k0_t1_zero] at e0
  exact e3.trans (congrArg _ (e2.trans (congrArg _ (e1.trans (congrArg _ e0)))))

end

theorem hz4 : (![0, 0, 0, 0] : Fin 4 → Nat) = fun _ => 0 := funext fun a => by fin_cases a <;> rfl

/-- What the point's body leaves in the loss-sum block: the first component of the loop's result. -/
theorem out2_eq (c : Dev nD) (i : grid0.Coords) (arg1 : Memref sig .tc .vmem S1x8x512x512 .f32) (harg1 : arg1.IsWhole) (arg2 : Memref sig .tc .vmem S1x512x512 .i32) (harg2 : arg2.IsWhole) (arg3 : Memref sig .tc .vmem S1x8x1x1 .f32) (harg3 : arg3.IsWhole) (arg4 : Memref sig .tc .vmem S1x8x1x1 .f32) (harg4 : arg4.IsWhole) (x0 : Vec F S1x8x512x512 .f32) (x1 : Vec F S1x512x512 .i32) :
    out0_A_2 (F := F) c i arg1 harg1 arg2 harg2 arg3 harg3 arg4 harg4 x0 x1
      = (st_k0_t1 (F := F) Variants.none c none i arg1 harg1 arg2 harg2 arg3 harg3 arg4 harg4 (harg1.unread x0) (harg2.unread x1) (k0_pay1, k0_pay2) 4).1 := by
  unfold out0_A_2
  rw [View.read_writes_eq_canon _ _ _ (cover0_A_2 c i arg1 harg1 arg2 harg2 arg3 harg3 arg4 harg4 x0 x1)]
  unfold kernelRun0_A
  dsimp only
  rw [View.canon_unit_zero hz4]
  rfl

/-- And in the count block: the second component. -/
theorem out3_eq (c : Dev nD) (i : grid0.Coords) (arg1 : Memref sig .tc .vmem S1x8x512x512 .f32) (harg1 : arg1.IsWhole) (arg2 : Memref sig .tc .vmem S1x512x512 .i32) (harg2 : arg2.IsWhole) (arg3 : Memref sig .tc .vmem S1x8x1x1 .f32) (harg3 : arg3.IsWhole) (arg4 : Memref sig .tc .vmem S1x8x1x1 .f32) (harg4 : arg4.IsWhole) (x0 : Vec F S1x8x512x512 .f32) (x1 : Vec F S1x512x512 .i32) :
    out0_A_3 (F := F) c i arg1 harg1 arg2 harg2 arg3 harg3 arg4 harg4 x0 x1
      = (st_k0_t1 (F := F) Variants.none c none i arg1 harg1 arg2 harg2 arg3 harg3 arg4 harg4 (harg1.unread x0) (harg2.unread x1) (k0_pay1, k0_pay2) 4).2 := by
  unfold out0_A_3
  rw [View.read_writes_eq_canon _ _ _ (cover0_A_3 c i arg1 harg1 arg2 harg2 arg3 harg3 arg4 harg4 x0 x1)]
  unfold kernelRun0_A
  dsimp only
  rw [View.canon_unit_zero hz4]
  rfl

/-! ## The rows a trip loads -/

/-- Trip `k`'s rows of the logits block are rows `128 k … 128 k + 127` of the block. -/
theorem rowsX_apply (arg1 : Memref sig .tc .vmem S1x8x512x512 .f32) (harg1 : arg1.IsWhole)
    (x0 : Vec F S1x8x512x512 .f32) (k : Fin k0_t1_loop.trips) (c' : Fin 8) (r : Fin 128) (w : Fin 512)
    (hr : 128 * k.val + r.val < 512) :
    rowsX (F := F) arg1 (harg1.unread x0) k (ix4 0 c' r w) = x0 (ix4 0 c' ⟨128 * k.val + r.val, hr⟩ w) := by
  rw [show rowsX (F := F) arg1 (harg1.unread x0) k
      = View.ld (arg1.view.read (Elt F) (harg1.unread x0)) (Rect.unit (s := S1x8x512x512) (k0_off1 k) S1x8x128x512.size (k0_off1_inb k)) from rfl,
    harg1.read_unread]
  show x0 _ = x0 _
  congr 1
  funext a; apply Fin.ext
  have e := k0_off1_eq k
  match a with
  | ⟨0, _⟩ => show k0_off1 k 0 + 1 * 0 = 0; rw [e]; rfl
  | ⟨1, _⟩ => show k0_off1 k 1 + 1 * c'.val = c'.val; rw [e]; show 0 + 1 * c'.val = c'.val; omega
  | ⟨2, _⟩ => show k0_off1 k 2 + 1 * r.val = 128 * k.val + r.val; rw [e]; show 128 * k.val + 1 * r.val = _; omega
  | ⟨3, _⟩ => show k0_off1 k 3 + 1 * w.val = w.val; rw [e]; show 0 + 1 * w.val = w.val; omega

/-- And of the label block. -/
theorem rowsL_apply (arg2 : Memref sig .tc .vmem S1x512x512 .i32) (harg2 : arg2.IsWhole)
    (x1 : Vec F S1x512x512 .i32) (k : Fin k0_t1_loop.trips) (r : Fin 128) (w : Fin 512)
    (hr : 128 * k.val + r.val < 512) :
    rowsL (F := F) arg2 (harg2.unread x1) k (ix3 0 r w) = x1 (ix3 0 ⟨128 * k.val + r.val, hr⟩ w) := by
  rw [show rowsL (F := F) arg2 (harg2.unread x1) k
      = View.ld (arg2.view.read (Elt F) (harg2.unread x1)) (Rect.unit (s := S1x512x512) (k0_off2 k) S1x128x512.size (k0_off2_inb k)) from rfl,
    harg2.read_unread]
  show x1 _ = x1 _
  congr 1
  funext a; apply Fin.ext
  have e := k0_off2_eq k
  match a with
  | ⟨0, _⟩ => show k0_off2 k 0 + 1 * 0 = 0; rw [e]; rfl
  | ⟨1, _⟩ => show k0_off2 k 1 + 1 * r.val = 128 * k.val + r.val; rw [e]; show 128 * k.val + 1 * r.val = _; omega
  | ⟨2, _⟩ => show k0_off2 k 2 + 1 * w.val = w.val; rw [e]; show 0 + 1 * w.val = w.val; omega

/-! ## 512 rows are four runs of 128 -/

/-- Row `128 k + r` as the pair `(k, r)`. -/
def rowEquiv : Fin 4 × Fin 128 ≃ Fin 512 := finProdFinEquiv

theorem rowEquiv_val (k : Fin 4) (r : Fin 128) : (rowEquiv (k, r)).val = 128 * k.val + r.val := by
  show r.val + 128 * k.val = _; omega

/-- A sum over the 512 rows is the sum of the four trips' sums over their 128 rows, added up from zero in
    the loop's order. -/
theorem sum_rows (g : Fin 512 → EReal) :
    ∑ h : Fin 512, g h
      = ((((0 + ∑ r : Fin 128, g ⟨128 * 0 + r.val, by omega⟩) + ∑ r : Fin 128, g ⟨128 * 1 + r.val, by omega⟩)
          + ∑ r : Fin 128, g ⟨128 * 2 + r.val, by omega⟩) + ∑ r : Fin 128, g ⟨128 * 3 + r.val, by omega⟩) := by
  have e : ∑ h : Fin 512, g h = ∑ p : Fin 4 × Fin 128, g (rowEquiv p) :=
    (Fintype.sum_equiv rowEquiv _ _ (fun _ => rfl)).symm
  rw [e, Fintype.sum_prod_type, Fin.sum_univ_four, zero_add]
  have hk : ∀ (k : Fin 4) (r : Fin 128), rowEquiv (k, r) = ⟨128 * k.val + r.val, by have := r.isLt; have := k.isLt; omega⟩ :=
    fun k r => Fin.ext (rowEquiv_val k r)
  simp only [hk]
  rfl

/-! ## The point's two blocks, at the extended reals -/

/-- The start value of both carried sums is zero. -/
theorem pay1_zero (cc : Fin 8) : k0_pay1 (F := Ideal) (ix4 0 cc 0 0) = 0 := Ideal.ofBits_zero_f32
theorem pay2_zero (cc : Fin 8) : k0_pay2 (F := Ideal) (ix4 0 cc 0 0) = 0 := Ideal.ofBits_zero_f32

/-- One trip's addition to the loss sums, over the block's own rows `128 k + r`. -/
theorem trip_sum (arg1 : Memref sig .tc .vmem S1x8x512x512 .f32) (harg1 : arg1.IsWhole)
    (arg2 : Memref sig .tc .vmem S1x512x512 .i32) (harg2 : arg2.IsWhole)
    (x0 : Vec Ideal S1x8x512x512 .f32) (x1 : Vec Ideal S1x512x512 .i32) (k : Fin k0_t1_loop.trips) (hk : k.val < 4) (cc : Fin 8) :
    (∑ r : Fin 128, ∑ w : Fin 512,
        if (rowsL (F := Ideal) arg2 (harg2.unread x1) k (ix3 0 r w)).toInt = (cc.val : ℤ)
          then colLoss (fun c' => rowsX (F := Ideal) arg1 (harg1.unread x0) k (ix4 0 c' r w)) cc else 0)
      = ∑ r : Fin 128, ∑ w : Fin 512,
          if (x1 (ix3 0 ⟨128 * k.val + r.val, by have := r.isLt; omega⟩ w)).toInt = (cc.val : ℤ)
            then colLoss (fun c' => x0 (ix4 0 c' ⟨128 * k.val + r.val, by have := r.isLt; omega⟩ w)) cc else 0 := by
  refine Finset.sum_congr rfl fun r _ => Finset.sum_congr rfl fun w _ => ?_
  have hr : 128 * k.val + r.val < 512 := by have := r.isLt; omega
  rw [rowsL_apply arg2 harg2 x1 k r w hr]
  have hX : (fun c' => rowsX (F := Ideal) arg1 (harg1.unread x0) k (ix4 0 c' r w))
      = fun c' => x0 (ix4 0 c' ⟨128 * k.val + r.val, hr⟩ w) :=
    funext fun c' => rowsX_apply arg1 harg1 x0 k c' r w hr
  rw [hX]

/-- One trip's addition to the counts. -/
theorem trip_cnt (arg2 : Memref sig .tc .vmem S1x512x512 .i32) (harg2 : arg2.IsWhole)
    (x1 : Vec Ideal S1x512x512 .i32) (k : Fin k0_t1_loop.trips) (hk : k.val < 4) (cc : Fin 8) :
    (∑ r : Fin 128, ∑ w : Fin 512,
        if (rowsL (F := Ideal) arg2 (harg2.unread x1) k (ix3 0 r w)).toInt = (cc.val : ℤ) then (1 : EReal) else 0)
      = ∑ r : Fin 128, ∑ w : Fin 512,
          if (x1 (ix3 0 ⟨128 * k.val + r.val, by have := r.isLt; omega⟩ w)).toInt = (cc.val : ℤ) then (1 : EReal) else 0 := by
  refine Finset.sum_congr rfl fun r _ => Finset.sum_congr rfl fun w _ => ?_
  have hr : 128 * k.val + r.val < 512 := by have := r.isLt; omega
  rw [rowsL_apply arg2 harg2 x1 k r w hr]

/-- What one grid point leaves in the loss-sum output block at class `cc`: the four trips' additions,
    over all 512 rows and 512 columns of the point's sample. -/
theorem out_sum (c : Dev nD) (i : grid0.Coords) (arg1 : Memref sig .tc .vmem S1x8x512x512 .f32) (harg1 : arg1.IsWhole) (arg2 : Memref sig .tc .vmem S1x512x512 .i32) (harg2 : arg2.IsWhole) (arg3 : Memref sig .tc .vmem S1x8x1x1 .f32) (harg3 : arg3.IsWhole) (arg4 : Memref sig .tc .vmem S1x8x1x1 .f32) (harg4 : arg4.IsWhole)
    (x0 : Vec Ideal S1x8x512x512 .f32) (x1 : Vec Ideal S1x512x512 .i32) (cc : Fin 8) :
    out0_A_2 (F := Ideal) c i arg1 harg1 arg2 harg2 arg3 harg3 arg4 harg4 x0 x1 (ix4 0 cc 0 0)
      = ∑ h : Fin 512, ∑ w : Fin 512,
          if (x1 (ix3 0 h w)).toInt = (cc.val : ℤ) then colLoss (fun c' => x0 (ix4 0 c' h w)) cc else 0 := by
  rw [out2_eq, st_four]
  simp only [tripR_eq]
  rw [Payload.pay_sum, Payload.pay_sum, Payload.pay_sum, Payload.pay_sum, pay1_zero,
    trip_sum arg1 harg1 arg2 harg2 x0 x1 ⟨0, lt0⟩ (by decide) cc, trip_sum arg1 harg1 arg2 harg2 x0 x1 ⟨1, lt1⟩ (by decide) cc,
    trip_sum arg1 harg1 arg2 harg2 x0 x1 ⟨2, lt2⟩ (by decide) cc, trip_sum arg1 harg1 arg2 harg2 x0 x1 ⟨3, lt3⟩ (by decide) cc]
  exact (sum_rows fun h => ∑ w : Fin 512,
    if (x1 (ix3 0 h w)).toInt = (cc.val : ℤ) then colLoss (fun c' => x0 (ix4 0 c' h w)) cc else 0).symm

/-- What one grid point leaves in the count output block at class `cc`. -/
theorem out_cnt (c : Dev nD) (i : grid0.Coords) (arg1 : Memref sig .tc .vmem S1x8x512x512 .f32) (harg1 : arg1.IsWhole) (arg2 : Memref sig .tc .vmem S1x512x512 .i32) (harg2 : arg2.IsWhole) (arg3 : Memref sig .tc .vmem S1x8x1x1 .f32) (harg3 : arg3.IsWhole) (arg4 : Memref sig .tc .vmem S1x8x1x1 .f32) (harg4 : arg4.IsWhole)
    (x0 : Vec Ideal S1x8x512x512 .f32) (x1 : Vec Ideal S1x512x512 .i32) (cc : Fin 8) :
    out0_A_3 (F := Ideal) c i arg1 harg1 arg2 harg2 arg3 harg3 arg4 harg4 x0 x1 (ix4 0 cc 0 0)
      = ∑ h : Fin 512, ∑ w : Fin 512,
          if (x1 (ix3 0 h w)).toInt = (cc.val : ℤ) then (1 : EReal) else 0 := by
  rw [out3_eq, st_four]
  simp only [tripR_eq]
  rw [Payload.pay_cnt, Payload.pay_cnt, Payload.pay_cnt, Payload.pay_cnt, pay2_zero,
    trip_cnt arg2 harg2 x1 ⟨0, lt0⟩ (by decide) cc, trip_cnt arg2 harg2 x1 ⟨1, lt1⟩ (by decide) cc,
    trip_cnt arg2 harg2 x1 ⟨2, lt2⟩ (by decide) cc, trip_cnt arg2 harg2 x1 ⟨3, lt3⟩ (by decide) cc]
  exact (sum_rows fun h => ∑ w : Fin 512, if (x1 (ix3 0 h w)).toInt = (cc.val : ℤ) then (1 : EReal) else 0).symm

end Cert.KernelIdeal.Loop

end
-- ==== Proof.KArray.lean ====
import proofs.«424199_j69483980915154_3_alg».proof.Proof.Gen.KernelIdeal.Frame
import proofs.«424199_j69483980915154_3_alg».proof.Proof.KLoop
import proofs.«424199_j69483980915154_3_alg».proof.Proof.Spec
import Idealize.ShloMosaic.Lib.Pipeline.Value

noncomputable section

set_option maxRecDepth 16384

namespace Cert.KernelIdeal.Arrays

open Idealize.ShloMosaic Idealize.ShloMosaic.TcCoe Idealize.ShloMosaic.ValueIdx
open Idealize.SL Idealize.SL.Sem
open Cert.KernelIdeal Cert.KernelIdeal.Gen Cert.WCE

variable (m : (ℓ : Loc nD τ sig) → Buf (Elt Ideal) ℓ)

/-- The logits and the labels as the program is launched with them. -/
abbrev Xarr (c : Dev nD) : S16x8x512x512.Idx → EReal := m ((c : Thread nD τ).loc main_arg0)
abbrev Larr (c : Dev nD) : S16x512x512.Idx → BitVec 32 := m ((c : Thread nD τ).loc main_arg2)

/-- Sample `b`'s sum, over its pixels labelled `cc`, of minus their log-softmax at `cc`. -/
abbrev sumAt (c : Dev nD) (b : Fin 16) (cc : Fin 8) : EReal :=
  ∑ h : Fin 512, ∑ w : Fin 512, if hit (Larr m c) b h w cc then colLoss (colX (Xarr m c) b h w) cc else 0

/-- The number of sample `b`'s pixels labelled `cc`. -/
abbrev cntAt (c : Dev nD) (b : Fin 16) (cc : Fin 8) : EReal :=
  ∑ h : Fin 512, ∑ w : Fin 512, if hit (Larr m c) b h w cc then (1 : EReal) else 0

/-- The sample a grid point works on: the grid has one point per sample. -/
abbrev smp (t : Fin cfg0.N) : Fin 16 := ⟨t.val, t.isLt⟩

/-- Where each window's block sits at grid point `t`: at sample `t`, at the origin of every other axis. -/
theorem block_at : ∀ t : Fin cfg0.N,
    win0_0.index t = ![t.val, 0, 0, 0] ∧ win0_1.index t = ![t.val, 0, 0]
    ∧ win0_2.index t = ![t.val, 0, 0, 0] ∧ win0_3.index t = ![t.val, 0, 0, 0] :=
  (by decide +kernel : ∀ t : Fin grid0.N, _)

/-- Grid point `t`'s block of the logits is sample `t` of the logits. -/
theorem logits_block (c : Dev nD) (t : Fin cfg0.N) (c' : Fin 8) (h w : Fin 512) :
    (iblk m c 0 t : Vec Ideal S1x8x512x512 .f32) (ix4 0 c' h w) = Xarr m c (ix4 (smp t) c' h w) := by
  obtain ⟨e, -, -, -⟩ := block_at t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val; rw [congrFun e 0]; show t.val * 1 + 1 * 0 = t.val; omega
  | ⟨1, _⟩ => show win0_0.index t 1 * 8 + 1 * c'.val = c'.val; rw [congrFun e 1]; show 0 * 8 + 1 * c'.val = c'.val; omega
  | ⟨2, _⟩ => show win0_0.index t 2 * 512 + 1 * h.val = h.val; rw [congrFun e 2]; show 0 * 512 + 1 * h.val = h.val; omega
  | ⟨3, _⟩ => show win0_0.index t 3 * 512 + 1 * w.val = w.val; rw [congrFun e 3]; show 0 * 512 + 1 * w.val = w.val; omega

/-- Grid point `t`'s block of the labels is sample `t` of the labels. -/
theorem labels_block (c : Dev nD) (t : Fin cfg0.N) (h w : Fin 512) :
    (iblk m c 1 t : Vec Ideal S1x512x512 .i32) (ix3 0 h w) = Larr m c (ix3 (smp t) h w) := by
  obtain ⟨-, e, -, -⟩ := block_at t
  unfold iblk
  rw [View.read_apply]
  show V m c main_arg2 _ = m (c.tc.loc main_arg2) _
  unfold V
  congr 1
  funext a
  apply Fin.ext
  match a with
  | ⟨0, _⟩ => show win0_1.index t 0 * 1 + 1 * 0 = t.val; rw [congrFun e 0]; show t.val * 1 + 1 * 0 = t.val; omega
  | ⟨1, _⟩ => show win0_1.index t 1 * 512 + 1 * h.val = h.val; rw [congrFun e 1]; show 0 * 512 + 1 * h.val = h.val; omega
  | ⟨2, _⟩ => show win0_1.index t 2 * 512 + 1 * w.val = w.val; rw [congrFun e 2]; show 0 * 512 + 1 * w.val = w.val; omega

/-- What one grid point leaves in the loss-sum block at class `cc`, when its logits block `x0` and its labels block
    `x1` are sample `b`'s: sample `b`'s sum at `cc`. -/
theorem sum_point (c : Dev nD) (i : grid0.Coords) (arg1 : Memref sig .tc .vmem S1x8x512x512 .f32) (harg1 : arg1.IsWhole) (arg2 : Memref sig .tc .vmem S1x512x512 .i32) (harg2 : arg2.IsWhole) (arg3 : Memref sig .tc .vmem S1x8x1x1 .f32) (harg3 : arg3.IsWhole) (arg4 : Memref sig .tc .vmem S1x8x1x1 .f32) (harg4 : arg4.IsWhole)
    (x0 : Vec Ideal S1x8x512x512 .f32) (x1 : Vec Ideal S1x512x512 .i32) (b : Fin 16)
    (hx0 : ∀ (c' : Fin 8) (h w : Fin 512), x0 (ix4 0 c' h w) = Xarr m c (ix4 b c' h w))
    (hx1 : ∀ h w : Fin 512, x1 (ix3 0 h w) = Larr m c (ix3 b h w)) (cc : Fin 8) :
    out0_A_2 (F := Ideal) c i arg1 harg1 arg2 harg2 arg3 harg3 arg4 harg4 x0 x1 (ix4 0 cc 0 0) = sumAt m c b cc := by
  rw [Loop.out_sum]
  refine Finset.sum_congr rfl fun h _ => Finset.sum_congr rfl fun w _ => ?_
  have e0 : (fun c' : Fin 8 => x0 (ix4 0 c' h w)) = colX (Xarr m c) b h w := funext fun c' => hx0 c' h w
  rw [e0, hx1 h w]
  exact if_congr Iff.rfl rfl rfl

/-- What one grid point leaves in the count block at class `cc`, when its labels block `x1` is sample `b`'s. -/
theorem cnt_point (c : Dev nD) (i : grid0.Coords) (arg1 : Memref sig .tc .vmem S1x8x512x512 .f32) (harg1 : arg1.IsWhole) (arg2 : Memref sig .tc .vmem S1x512x512 .i32) (harg2 : arg2.IsWhole) (arg3 : Memref sig .tc .vmem S1x8x1x1 .f32) (harg3 : arg3.IsWhole) (arg4 : Memref sig .tc .vmem S1x8x1x1 .f32) (harg4 : arg4.IsWhole)
    (x0 : Vec Ideal S1x8x512x512 .f32) (x1 : Vec Ideal S1x512x512 .i32) (b : Fin 16)
    (hx1 : ∀ h w : Fin 512, x1 (ix3 0 h w) = Larr m c (ix3 b h w)) (cc : Fin 8) :
    out0_A_3 (F := Ideal) c i arg1 harg1 arg2 harg2 arg3 harg3 arg4 harg4 x0 x1 (ix4 0 cc 0 0) = cntAt m c b cc := by
  rw [Loop.out_cnt]
  refine Finset.sum_congr rfl fun h _ => Finset.sum_congr rfl fun w _ => ?_
  rw [hx1 h w]
  exact if_congr Iff.rfl rfl rfl

/-- An index of an output block: its three unit coordinates are `0`. -/
theorem block_idx (j : S1x8x1x1.Idx) : j = ix4 0 (j 1) 0 0 := by
  funext a
  apply Fin.ext
  match a with
  | ⟨0, _⟩ => show (j 0).val = 0; have : (j 0).val < 1 := (j 0).isLt; omega
  | ⟨1, _⟩ => rfl
  | ⟨2, _⟩ => show (j 2).val = 0; have : (j 2).val < 1 := (j 2).isLt; omega
  | ⟨3, _⟩ => show (j 3).val = 0; have : (j 3).val < 1 := (j 3).isLt; omega

/-- What point `t` writes back to the loss-sum array is block `t` of the per-sample, per-class sums. -/
theorem sum_flushed (c : Dev nD) (t : Fin cfg0.N) :
    (dats (F := Ideal) m 0 c).flushed 2 t
      = ((cfg0.win 2).blk t).view.read (Elt Ideal) (fun i : S16x8x1x1.Idx => sumAt m c (i 0) (i 1)) := by
  show (cfg0.win 2).cut (grid0.coords t) ((dats m 0 c).after 2 t) = _
  rw [after0_2]
  unfold outsAt0
  dsimp only
  obtain ⟨-, -, e, -⟩ := block_at t
  refine funext fun (j : S1x8x1x1.Idx) => ?_
  obtain ⟨cc, rfl⟩ : ∃ cc : Fin 8, j = ix4 0 cc 0 0 := ⟨j 1, block_idx j⟩
  refine (sum_point m c (grid0.coords t) (ms0_0 t) (hs0_0 t) (ms0_1 t) (hs0_1 t) (ms0_2 t) (hs0_2 t) (ms0_3 t) (hs0_3 t)
    (iblk m c 0 t) (iblk m c 1 t) (smp t) (logits_block m c t) (labels_block m c t) cc).trans ?_
  have h0 : ((cfg0.win 2).blk t).view.emb (ix4 0 cc 0 0) 0 = smp t := Fin.ext (by
    show win0_2.index t 0 * 1 + 1 * 0 = t.val; rw [congrFun e 0]; show t.val * 1 + 1 * 0 = t.val; omega)
  have h1 : ((cfg0.win 2).blk t).view.emb (ix4 0 cc 0 0) 1 = cc := Fin.ext (by
    show win0_2.index t 1 * 8 + 1 * cc.val = cc.val; rw [congrFun e 1]; show 0 * 8 + 1 * cc.val = cc.val; omega)
  show sumAt m c (smp t) cc = sumAt m c (((cfg0.win 2).blk t).view.emb (ix4 0 cc 0 0) 0) (((cfg0.win 2).blk t).view.emb (ix4 0 cc 0 0) 1)
  rw [h0, h1]

/-- What point `t` writes back to the count array is block `t` of the per-sample, per-class counts. -/
theorem cnt_flushed (c : Dev nD) (t : Fin cfg0.N) :
    (dats (F := Ideal) m 0 c).flushed 3 t
      = ((cfg0.win 3).blk t).view.read (Elt Ideal) (fun i : S16x8x1x1.Idx => cntAt m c (i 0) (i 1)) := by
  show (cfg0.win 3).cut (grid0.coords t) ((dats m 0 c).after 3 t) = _
  rw [after0_3]
  unfold outsAt0
  dsimp only
  obtain ⟨-, -, -, e⟩ := block_at t
  refine funext fun (j : S1x8x1x1.Idx) => ?_
  obtain ⟨cc, rfl⟩ : ∃ cc : Fin 8, j = ix4 0 cc 0 0 := ⟨j 1, block_idx j⟩
  refine (cnt_point m c (grid0.coords t) (ms0_0 t) (hs0_0 t) (ms0_1 t) (hs0_1 t) (ms0_2 t) (hs0_2 t) (ms0_3 t) (hs0_3 t)
    (iblk m c 0 t) (iblk m c 1 t) (smp t) (labels_block m c t) cc).trans ?_
  have h0 : ((cfg0.win 3).blk t).view.emb (ix4 0 cc 0 0) 0 = smp t := Fin.ext (by
    show win0_3.index t 0 * 1 + 1 * 0 = t.val; rw [congrFun e 0]; show t.val * 1 + 1 * 0 = t.val; omega)
  have h1 : ((cfg0.win 3).blk t).view.emb (ix4 0 cc 0 0) 1 = cc := Fin.ext (by
    show win0_3.index t 1 * 8 + 1 * cc.val = cc.val; rw [congrFun e 1]; show 0 * 8 + 1 * cc.val = cc.val; omega)
  show cntAt m c (smp t) cc = cntAt m c (((cfg0.win 3).blk t).view.emb (ix4 0 cc 0 0) 0) (((cfg0.win 3).blk t).view.emb (ix4 0 cc 0 0) 1)
  rw [h0, h1]

/-- An index of the loss-sum array is in point `t`'s block iff each coordinate is in the block's range on its axis. -/
theorem mem_sum_block (t : Fin cfg0.N) (i : S16x8x1x1.Idx) :
    i ∈ ((cfg0.win 2).blk t).view.set ↔ ∀ a : Fin 4, win0_2.index t a * S1x8x1x1.size a ≤ (i a).val ∧ (i a).val < win0_2.index t a * S1x8x1x1.size a + S1x8x1x1.size a := by
  show i ∈ ((View.whole main_v0_0).slice (win0_2.rect t)).set ↔ _
  rw [View.set_slice_whole, Rect.mem_set_unit]
  exact Iff.rfl

/-- The same for the count array. -/
theorem mem_cnt_block (t : Fin cfg0.N) (i : S16x8x1x1.Idx) :
    i ∈ ((cfg0.win 3).blk t).view.set ↔ ∀ a : Fin 4, win0_3.index t a * S1x8x1x1.size a ≤ (i a).val ∧ (i a).val < win0_3.index t a * S1x8x1x1.size a + S1x8x1x1.size a := by
  show i ∈ ((View.whole main_v0_1).slice (win0_3.rect t)).set ↔ _
  rw [View.set_slice_whole, Rect.mem_set_unit]
  exact Iff.rfl

/-- Every index of the loss-sum array is in the block of the point of its sample. -/
theorem sum_cover (i : S16x8x1x1.Idx) :
    ∃ t : Fin cfg0.N, (cfg0.win 2).flush t = true ∧ i ∈ ((cfg0.win 2).blk t).view.set := by
  have hi0 : (i 0).val < 16 := (i 0).isLt
  have hi1 : (i 1).val < 8 := (i 1).isLt
  have hi2 : (i 2).val < 1 := (i 2).isLt
  have hi3 : (i 3).val < 1 := (i 3).isLt
  obtain ⟨-, -, e, -⟩ := block_at ⟨(i 0).val, hi0⟩
  refine ⟨⟨(i 0).val, hi0⟩, flush0_2 _, ?_⟩
  rw [mem_sum_block]
  intro a
  match a with
  | ⟨0, _⟩ => show win0_2.index ⟨(i 0).val, hi0⟩ 0 * 1 ≤ (i 0).val ∧ (i 0).val < win0_2.index ⟨(i 0).val, hi0⟩ 0 * 1 + 1; rw [congrFun e 0]; show (i 0).val * 1 ≤ (i 0).val ∧ (i 0).val < (i 0).val * 1 + 1; omega
  | ⟨1, _⟩ => show win0_2.index ⟨(i 0).val, hi0⟩ 1 * 8 ≤ (i 1).val ∧ (i 1).val < win0_2.index ⟨(i 0).val, hi0⟩ 1 * 8 + 8; rw [congrFun e 1]; show 0 * 8 ≤ (i 1).val ∧ (i 1).val < 0 * 8 + 8; omega
  | ⟨2, _⟩ => show win0_2.index ⟨(i 0).val, hi0⟩ 2 * 1 ≤ (i 2).val ∧ (i 2).val < win0_2.index ⟨(i 0).val, hi0⟩ 2 * 1 + 1; rw [congrFun e 2]; show 0 * 1 ≤ (i 2).val ∧ (i 2).val < 0 * 1 + 1; omega
  | ⟨3, _⟩ => show win0_2.index ⟨(i 0).val, hi0⟩ 3 * 1 ≤ (i 3).val ∧ (i 3).val < win0_2.index ⟨(i 0).val, hi0⟩ 3 * 1 + 1; rw [congrFun e 3]; show 0 * 1 ≤ (i 3).val ∧ (i 3).val < 0 * 1 + 1; omega

/-- Every index of the count array is in the block of the point of its sample. -/
theorem cnt_cover (i : S16x8x1x1.Idx) :
    ∃ t : Fin cfg0.N, (cfg0.win 3).flush t = true ∧ i ∈ ((cfg0.win 3).blk t).view.set := by
  have hi0 : (i 0).val < 16 := (i 0).isLt
  have hi1 : (i 1).val < 8 := (i 1).isLt
  have hi2 : (i 2).val < 1 := (i 2).isLt
  have hi3 : (i 3).val < 1 := (i 3).isLt
  obtain ⟨-, -, -, e⟩ := block_at ⟨(i 0).val, hi0⟩
  refine ⟨⟨(i 0).val, hi0⟩, flush0_3 _, ?_⟩
  rw [mem_cnt_block]
  intro a
  match a with
  | ⟨0, _⟩ => show win0_3.index ⟨(i 0).val, hi0⟩ 0 * 1 ≤ (i 0).val ∧ (i 0).val < win0_3.index ⟨(i 0).val, hi0⟩ 0 * 1 + 1; rw [congrFun e 0]; show (i 0).val * 1 ≤ (i 0).val ∧ (i 0).val < (i 0).val * 1 + 1; omega
  | ⟨1, _⟩ => show win0_3.index ⟨(i 0).val, hi0⟩ 1 * 8 ≤ (i 1).val ∧ (i 1).val < win0_3.index ⟨(i 0).val, hi0⟩ 1 * 8 + 8; rw [congrFun e 1]; show 0 * 8 ≤ (i 1).val ∧ (i 1).val < 0 * 8 + 8; omega
  | ⟨2, _⟩ => show win0_3.index ⟨(i 0).val, hi0⟩ 2 * 1 ≤ (i 2).val ∧ (i 2).val < win0_3.index ⟨(i 0).val, hi0⟩ 2 * 1 + 1; rw [congrFun e 2]; show 0 * 1 ≤ (i 2).val ∧ (i 2).val < 0 * 1 + 1; omega
  | ⟨3, _⟩ => show win0_3.index ⟨(i 0).val, hi0⟩ 3 * 1 ≤ (i 3).val ∧ (i 3).val < win0_3.index ⟨(i 0).val, hi0⟩ 3 * 1 + 1; rw [congrFun e 3]; show 0 * 1 ≤ (i 3).val ∧ (i 3).val < 0 * 1 + 1; omega

/-- After the region the loss-sum array holds `sumAt` at sample `b` and class `cc`. -/
theorem final_sum (c : Dev nD) :
    (dats (F := Ideal) m 0 c).arrAt 2 cfg0.N = fun i : S16x8x1x1.Idx => sumAt m c (i 0) (i 1) :=
  (dats (F := Ideal) m 0 c).arrAt_eq_of_cover 2 (fun i : S16x8x1x1.Idx => sumAt m c (i 0) (i 1))
    (fun t _ => sum_flushed m c t) sum_cover

/-- After the region the count array holds `cntAt` at sample `b` and class `cc`. -/
theorem final_cnt (c : Dev nD) :
    (dats (F := Ideal) m 0 c).arrAt 3 cfg0.N = fun i : S16x8x1x1.Idx => cntAt m c (i 0) (i 1) :=
  (dats (F := Ideal) m 0 c).arrAt_eq_of_cover 3 (fun i : S16x8x1x1.Idx => cntAt m c (i 0) (i 1))
    (fun t _ => cnt_flushed m c t) cnt_cover

end Cert.KernelIdeal.Arrays

end
-- ==== Proof.KTail.lean ====
import proofs.«424199_j69483980915154_3_alg».proof.Proof.Gen.KernelIdeal.Frame
import proofs.«424199_j69483980915154_3_alg».proof.Proof.KArray
import proofs.«424199_j69483980915154_3_alg».proof.Proof.Spec
import Idealize.ShloMosaic.Lib.Pipeline.Value
import Idealize.ShloMosaic.Lib.StableHlo.Run
import Idealize.ShloMosaic.PureOps.Ideal.Laws

noncomputable section

set_option maxRecDepth 16384

namespace Cert.KernelIdeal.Tail

open Idealize.ShloMosaic Idealize.ShloMosaic.TcCoe Idealize.ShloMosaic.ValueIdx
open Idealize.SL Idealize.SL.Sem
open Cert.KernelIdeal Cert.KernelIdeal.Gen Cert.WCE

/-- An array of per-sample, per-class values laid out as [16, 8, 1, 1], read as [16, 8] and summed over the samples
    from zero, holds at class `i` the sum over the samples. -/
theorem reduce_rows (f : Fin 16 → Fin 8 → EReal) (hc : S16x8x1x1.ShapeCasts S16x8) (hr : S16x8.ReducesTo [0] S8)
    (h0 : 0 < S_.numel) :
    Host.reduceAdd (F := Ideal) (fun i => shapeCast S16x8 (fun j : S16x8x1x1.Idx => f (j 0) (j 1)) hc i)
      (constant S_ .f32 0x00000000#32) hr h0
    = fun i : S8.Idx => ∑ b : Fin 16, f b (i 0) := by
  funext i
  have hR : S16x8.Reduces [0] S8 := by decide
  show Ideal.hostReduceAdd hr _ (Ideal.ofBits .f32 0x00000000#32) i = _
  rw [Ideal.hostReduceAdd_single hr hR, Ideal.ofBits_zero_f32, zero_add]
  refine Finset.sum_congr rfl fun b _ => ?_
  -- position (b, i) of the [16, 8] reading is position (b, i, 0, 0) of the [16, 8, 1, 1] array
  refine (shapeCast_apply _ hc (hR.lift i b) (ix4 b (i 0) 0 0) ?_).trans rfl
  rw [Shape.rowMajor_val_four, Shape.rowMajor_val_two]
  show ((b.val * 8 + (i 0).val) * 1 + 0) * 1 + 0 = b.val * 8 + (i 0).val
  omega

/-- What the lines after the region leave in the result buffer: the loss of the argument arrays. The region's two
    output arrays hold each sample's per-class sums and counts; the lines sum them over the samples and then apply
    the operations of `Cert.WCE.tail` to the class weights, the sums and the counts. -/
theorem tail_read (m : (ℓ : Loc nD τ sig) → Buf (Elt Ideal) ℓ) (c : Dev nD) :
    Pipeline.afterTail₀ cfgs (dats m) 0 (V0 m) [hostOps1, hostOps1_1, hostOps1_2] c main_v15
      = Cert.WCE.loss (m ((c : Thread nD τ).loc main_arg0)) (m ((c : Thread nD τ).loc main_arg1)) (m ((c : Thread nD τ).loc main_arg2)) := by
  -- the class weights are no array of the region: they are as launched
  have hW : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  -- the region's two output arrays
  have hS : Pipeline.withArrays (cfgs 0).spec c (V0 m c) (fun w => (dats m 0 c).arrAt w (cfgs 0).N) (Proc.devRef .tc main_v0_0)
      = fun i : S16x8x1x1.Idx => Arrays.sumAt m c (i 0) (i 1) :=
    (Pipeline.withArrays_arr spec0 launch0.win.arr_inj c _ _ 2).trans (Arrays.final_sum m c)
  have hN : Pipeline.withArrays (cfgs 0).spec c (V0 m c) (fun w => (dats m 0 c).arrAt w (cfgs 0).N) (Proc.devRef .tc main_v0_1)
      = fun i : S16x8x1x1.Idx => Arrays.cntAt m c (i 0) (i 1) :=
    (Pipeline.withArrays_arr spec0 launch0.win.arr_inj c _ _ 3).trans (Arrays.final_cnt m c)
  unfold Pipeline.afterTail₀
  simp only [hostOps1, hostOps1_1, hostOps1_2, List.flatten_cons, List.flatten_nil, List.append_nil, List.cons_append, List.nil_append]
  after_results_simp
  simp only [StableHlo.TRef.ofBuf, StableHlo.TRef.toBuf, cast_eq]
  rw [hW, hS, hN]
  -- the same last operations on both sides: only the per-class sums and counts are compared
  exact congrArg₂ (tail (F := Ideal) (m ((c : Thread nD τ).loc main_arg1)))
    (reduce_rows (fun b cc => Arrays.sumAt m c b cc) shapeCasts_S16x8x1x1_S16x8 reducesTo_S16x8_S8_d0 h_S_)
    (reduce_rows (fun b cc => Arrays.cntAt m c b cc) shapeCasts_S16x8x1x1_S16x8 reducesTo_S16x8_S8_d0 h_S_)

/-- The idealized kernel's run, read: its result is the loss of the argument arrays, which end unchanged. -/
theorem kernel_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v15)
          = Cert.WCE.loss (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, ?_, ?_, ?_⟩) (run_main m ρ)
  · exact ((h c).2 main_v15 (Pipeline.mem_restRefs_of main_v15 (by decide) (by decide))).trans (tail_read m c)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).1 1).trans (((dats m 0 c).arrAt_in 1 rfl _).trans ((A_eq m c 1).trans (V_main_arg2 m c)))

end Cert.KernelIdeal.Tail

end
-- ==== Proof.Finite.lean ====
import proofs.«424199_j69483980915154_3_alg».proof.Proof.Gen.Pre_finite_inputs
import proofs.«424199_j69483980915154_3_alg».proof.Proof.Spec
import Idealize.ShloMosaic.Lib.ReduceAll
import Idealize.ShloMosaic.PureOps.Ideal.Laws
import Idealize.ShloMosaic.Lib.ValueIdx

noncomputable section

namespace Cert.WCE.Finite

open Idealize.ShloMosaic Idealize.ShloMosaic.ValueIdx Cert.Pre_finite_inputs Cert.WCE

/-- The f32 pattern with every exponent bit set, no fraction bit and sign bit clear is plus infinity. -/
theorem ofBits_inf : Ideal.ofBits .f32 0x7F800000#32 = (⊤ : EReal) := by
  simp [Ideal.ofBits, Ideal.ieee]

/-- An extended real whose absolute value `max x (-x)` is strictly below plus infinity is a real number:
    at `⊥` and at `⊤` the absolute value is `⊤`. -/
theorem real_of_abs_lt_top (x : EReal) (hx : max x (-x) < (⊤ : EReal)) : ∃ r : ℝ, x = (r : EReal) := by
  induction x using EReal.rec with
  | bot => simp at hx
  | coe r => exact ⟨r, rfl⟩
  | top => simp at hx

/-- The comparison "ordered less than" that came out 1 says `x < y` in the linear order. -/
theorem lt_of_cmp_olt (x y : EReal) (hc : Ideal.cmp .olt x y = 1#1) : x < y := by
  unfold Ideal.cmp at hc
  by_contra hn
  simp [hn] at hc

/-- Under the precondition every logit is a real number. -/
theorem finite_of_pre (X : FVec Ideal S16x8x512x512 .f32) (cw : FVec Ideal S8 .f32) (L : IVec S16x512x512 32)
    (h : Cert.Pre_finite_inputs.fn (F := Ideal) X cw L = fun _ => 1#1) :
    ∀ i, ∃ r : ℝ, X i = (r : EReal) := by
  intro i
  -- a shape of rank zero has one index
  haveI : Subsingleton S_.Idx := ⟨fun a b => funext fun d => d.elim0⟩
  -- the precondition at its one index: the conjunction of the two "all" reductions is 1
  have h0 := congrFun h ValueIdx.ix0
  dsimp only [Cert.Pre_finite_inputs.fn] at h0
  -- so the reduction over the logits is 1, and every element it reduces is 1
  obtain ⟨hX, _⟩ := IntOp.andi_eq_one.1 h0
  have hi := Host.reduce_andi_all _ _ _ _ _ hX i
  -- the element at `i` is the comparison `|X i| < +inf`
  have hc : Ideal.cmp .olt (max (X i) (-(X i))) (Ideal.ofBits .f32 0x7F800000#32) = 1#1 := hi
  rw [ofBits_inf] at hc
  exact real_of_abs_lt_top (X i) (lt_of_cmp_olt _ _ hc)

end Cert.WCE.Finite

end
-- ==== Proof.lean ====
/-
  The weighted cross-entropy kernel against its jnp reference, over the extended reals.

  Both programs compute `∑ c, (cw c / ∑ cw) · mean c`, where `mean c` is, over the pixels labelled `c`,
  the mean of minus the log-softmax of the pixel's eight logits at `c` (zero for a class with no pixel):
  `Cert.WCE.loss` (Proof/Spec.lean). The kernel sums, sample by sample and 128 rows at a time, the masked
  terms `log ∑ exp (x - max x) - (x_c - max x)` and the mask itself; the reference takes the log-softmax of
  every pixel, reads it at the label and adds it to its class by an accumulating scatter, which drops a label
  outside `[0, 8)` as the kernel's mask does. With finite logits `-(s - l) = l - s`, and the two are one sum
  in two orders.
-/
import proofs.«424199_j69483980915154_3_alg».proof.Defs
import proofs.«424199_j69483980915154_3_alg».proof.Proof.Gen.Kernel
import proofs.«424199_j69483980915154_3_alg».proof.Proof.Gen.Kernel.Frame
import proofs.«424199_j69483980915154_3_alg».proof.Proof.Gen.KernelIdeal
import proofs.«424199_j69483980915154_3_alg».proof.Proof.Gen.KernelIdeal.Frame
import proofs.«424199_j69483980915154_3_alg».proof.Proof.Gen.ReferenceIdeal
import proofs.«424199_j69483980915154_3_alg».proof.Proof.Gen.Pre_finite_inputs
import proofs.«424199_j69483980915154_3_alg».proof.Proof.RefRun
import proofs.«424199_j69483980915154_3_alg».proof.Proof.RefRead
import proofs.«424199_j69483980915154_3_alg».proof.Proof.RefValue
import proofs.«424199_j69483980915154_3_alg».proof.Proof.KTail
import proofs.«424199_j69483980915154_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the loss of the (agreeing) argument arrays. -/
theorem algebraic : Cert.algebraic_KernelIdeal_ReferenceIdeal := by
  intro m ρ m' ρ' hpre hagree
  refine ⟨fun c => Cert.WCE.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Tail.kernel_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v25_eq, (hagree c).1, (hagree c).2.1, (hagree c).2.2]
  exact Cert.ReferenceIdeal.RefValue.ref_value _ _ _ (Cert.WCE.Finite.finite_of_pre _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
